-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x16384 : Shape := ⟨3, ![16, 32, 16384]⟩
abbrev S16x32 : Shape := ⟨2, ![16, 32]⟩
abbrev S64x32 : Shape := ⟨2, ![64, 32]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S16x32x16384 : S_.BroadcastsInDim S16x32x16384 (![] : Fin 0 → Fin S16x32x16384.rank)
  reducesTo_S16x32x16384_S_d0_1_2 : S16x32x16384.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  reducesTo_S16x32_S_d0_1 : S16x32.ReducesTo [0, 1] S_

variable [Facts]

def comparator_i32_d1 : BitVec 32 → BitVec 32 → BitVec 1 :=
  fun l r =>
    let v29 := IntOp.cmpi .slt l r
    v29
def fn_part1 {F : FTy → Type} [FloatOps F] (main_arg1 : IVec S16x32 32) (main_arg5 : FVec F S32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : IVec S16x32 32 := (fun x => Host.sort S16x32 1 comparator_i32_d1 x) main_arg1
  let main_v25 : IVec S16x32 32 := iotaInDim S16x32 32 1
  let main_v26 : IVec S16x32 1 := cmpi .eq main_v24 main_v25
  let main_c_8 : IVec S_ 1 := constantI S_ 1 1#1
  let main_v27 : IVec S_ 1 := (fun x v => Host.reduce IntOp.andi x v reducesTo_S16x32_S_d0_1 h_S_) main_v26 main_c_8
  let main_v28 : IVec S_ 1 := andi main_v23 main_v27
  main_v28

def fn {F : FTy → Type} [FloatOps F] (main_arg0 : FVec F S16x32x16384 .f32) (main_arg1 : IVec S16x32 32) (main_arg2 : FVec F S64x32 .f32) (main_arg3 : FVec F S64 .f32) (main_arg4 : FVec F S32x64 .f32) (main_arg5 : FVec F S32 .f32) : IVec S_ 1 :=
  let main_v0 : FVec F S16x32x16384 .f32 := Host.absf main_arg0
  let main_cst : FVec F S_ .f32 := constant S_ .f32 0x7F800000#32
  let main_v1 : FVec F S16x32x16384 .f32 := broadcastInDim S16x32x16384 ![] bcast_S_S16x32x16384 main_cst
  let main_v2 : IVec S16x32x16384 1 := cmpf .olt main_v0 main_v1
  let main_c : IVec S_ 1 := constantI S_ 1 1#1
  let main_v3 : IVec S_ 1 := (fun x v => Host.reduce IntOp.andi x v reducesTo_S16x32x16384_S_d0_1_2 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg1 main_arg5 main_v13 main_v16
-- ==== Kernel.lean ====
abbrev S16x32x16384 : Shape := ⟨3, ![16, 32, 16384]⟩
abbrev S16x32 : Shape := ⟨2, ![16, 32]⟩
abbrev S64x32 : Shape := ⟨2, ![64, 32]⟩
abbrev S64 : Shape := ⟨1, ![64]⟩
abbrev S32x64 : Shape := ⟨2, ![32, 64]⟩
abbrev S32 : Shape := ⟨1, ![32]⟩
abbrev S_ : Shape := ⟨0, ![]⟩
abbrev S16x32x1 : Shape := ⟨3, ![16, 32, 1]⟩
abbrev S1 : Shape := ⟨1, ![1]⟩
abbrev S1x1x1 : Shape := ⟨3, ![1, 1, 1]⟩
abbrev S64x16x32 : Shape := ⟨3, ![64, 16, 32]⟩
abbrev S16x64x32 : Shape := ⟨3, ![16, 64, 32]⟩
abbrev S16x32x64 : Shape := ⟨3, ![16, 32, 64]⟩
abbrev S32x1 : Shape := ⟨2, ![32, 1]⟩
abbrev S4x256x32 : Shape := ⟨3, ![4, 256, 32]⟩
abbrev S4x4x32x64 : Shape := ⟨4, ![4, 4, 32, 64]⟩
abbrev S4x32x4x64 : Shape := ⟨4, ![4, 32, 4, 64]⟩
abbrev S4x32x256 : Shape := ⟨3, ![4, 32, 256]⟩
abbrev S1x64 : Shape := ⟨2, ![1, 64]⟩
abbrev S4x64 : Shape := ⟨2, ![4, 64]⟩
abbrev S256 : Shape := ⟨1, ![256]⟩
abbrev S256x1 : Shape := ⟨2, ![256, 1]⟩
abbrev S1x32x4096 : Shape := ⟨3, ![1, 32, 4096]⟩
abbrev S32x4096 : Shape := ⟨2, ![32, 4096]⟩
abbrev S1x256x32 : Shape := ⟨3, ![1, 256, 32]⟩
abbrev S256x32 : Shape := ⟨2, ![256, 32]⟩
abbrev S1x32x256 : Shape := ⟨3, ![1, 32, 256]⟩
abbrev S32x256 : Shape := ⟨2, ![32, 256]⟩
abbrev S256x4096 : Shape := ⟨2, ![256, 4096]⟩

abbrev nBuf : Space → Nat
  | .hbm => 96
  | .vmem => 8
  | .smem => 0
  | _ => 0

abbrev bufTy : (tb : Table) → Fin (tcTables nBuf tb) → BufTy
  | .hbm, ⟨0, _⟩ => ⟨S16x32x16384, .f32⟩
  | .hbm, ⟨1, _⟩ => ⟨S16x32, .i32⟩
  | .hbm, ⟨2, _⟩ => ⟨S64x32, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S16x32, .i32⟩
  | .hbm, ⟨7, _⟩ => ⟨S16x32, .i32⟩
  | .hbm, ⟨8, _⟩ => ⟨S16x32, .i32⟩
  | .hbm, ⟨9, _⟩ => ⟨S_, .i32⟩
  | .hbm, ⟨10, _⟩ => ⟨S16x32, .i32⟩
  | .hbm, ⟨11, _⟩ => ⟨S16x32, .i1⟩
  | .hbm, ⟨12, _⟩ => ⟨S_, .i32⟩
  | .hbm, ⟨13, _⟩ => ⟨S16x32, .i32⟩
  | .hbm, ⟨14, _⟩ => ⟨S16x32, .i32⟩
  | .hbm, ⟨15, _⟩ => ⟨S16x32, .i32⟩
  | .hbm, ⟨16, _⟩ => ⟨S16x32x1, .i32⟩
  | .hbm, ⟨17, _⟩ => ⟨S1, .i32⟩
  | .hbm, ⟨18, _⟩ => ⟨S_, .i32⟩
  | .hbm, ⟨19, _⟩ => ⟨S16x32x1, .i32⟩
  | .hbm, ⟨20, _⟩ => ⟨S16x32x1, .i1⟩
  | .hbm, ⟨21, _⟩ => ⟨S1x1x1, .i32⟩
  | .hbm, ⟨22, _⟩ => ⟨S16x32x1, .i32⟩
  | .hbm, ⟨23, _⟩ => ⟨S16x32x1, .i1⟩
  | .hbm, ⟨24, _⟩ => ⟨S16x32x1, .i1⟩
  | .hbm, ⟨25, _⟩ => ⟨S_, .i1⟩
  | .hbm, ⟨26, _⟩ => ⟨S16x32, .i1⟩
  | .hbm, ⟨27, _⟩ => ⟨S64x16x32, .f32⟩
  | .hbm, ⟨28, _⟩ => ⟨S64x16x32, .i1⟩
  | .hbm, ⟨29, _⟩ => ⟨S_, .f32⟩
  | .hbm, ⟨30, _⟩ => ⟨S64x16x32, .f32⟩
  | .hbm, ⟨31, _⟩ => ⟨S64x16x32, .f32⟩
  | .hbm, ⟨32, _⟩ => ⟨S16x64x32, .f32⟩
  | .hbm, ⟨33, _⟩ => ⟨S_, .i32⟩
  | .hbm, ⟨34, _⟩ => ⟨S16x32, .i32⟩
  | .hbm, ⟨35, _⟩ => ⟨S16x32, .i1⟩
  | .hbm, ⟨36, _⟩ => ⟨S_, .i32⟩
  | .hbm, ⟨37, _⟩ => ⟨S16x32, .i32⟩
  | .hbm, ⟨38, _⟩ => ⟨S16x32, .i32⟩
  | .hbm, ⟨39, _⟩ => ⟨S16x32, .i32⟩
  | .hbm, ⟨40, _⟩ => ⟨S16x32x1, .i32⟩
  | .hbm, ⟨41, _⟩ => ⟨S1, .i32⟩
  | .hbm, ⟨42, _⟩ => ⟨S_, .i32⟩
  | .hbm, ⟨43, _⟩ => ⟨S16x32x1, .i32⟩
  | .hbm, ⟨44, _⟩ => ⟨S16x32x1, .i1⟩
  | .hbm, ⟨45, _⟩ => ⟨S1x1x1, .i32⟩
  | .hbm, ⟨46, _⟩ => ⟨S16x32x1, .i32⟩
  | .hbm, ⟨47, _⟩ => ⟨S16x32x1, .i1⟩
  | .hbm, ⟨48, _⟩ => ⟨S16x32x1, .i1⟩
  | .hbm, ⟨49, _⟩ => ⟨S_, .i1⟩
  | .hbm, ⟨50, _⟩ => ⟨S16x32, .i1⟩
  | .hbm, ⟨51, _⟩ => ⟨S16x32x64, .f32⟩
  | .hbm, ⟨52, _⟩ => ⟨S16x32x64, .i1⟩
  | .hbm, ⟨53, _⟩ => ⟨S_, .f32⟩
  | .hbm, ⟨54, _⟩ => ⟨S16x32x64, .f32⟩
  | .hbm, ⟨55, _⟩ => ⟨S16x32x64, .f32⟩
  | .hbm, ⟨56, _⟩ => ⟨S_, .i32⟩
  | .hbm, ⟨57, _⟩ => ⟨S16x32, .i32⟩
  | .hbm, ⟨58, _⟩ => ⟨S16x32, .i1⟩
  | .hbm, ⟨59, _⟩ => ⟨S_, .i32⟩
  | .hbm, ⟨60, _⟩ => ⟨S16x32, .i32⟩
  | .hbm, ⟨61, _⟩ => ⟨S16x32, .i32⟩
  | .hbm, ⟨62, _⟩ => ⟨S16x32, .i32⟩
  | .hbm, ⟨63, _⟩ => ⟨S16x32x1, .i32⟩
  | .hbm, ⟨64, _⟩ => ⟨S1, .i32⟩
  | .hbm, ⟨65, _⟩ => ⟨S_, .i32⟩
  | .hbm, ⟨66, _⟩ => ⟨S16x32x1, .i32⟩
  | .hbm, ⟨67, _⟩ => ⟨S16x32x1, .i1⟩
  | .hbm, ⟨68, _⟩ => ⟨S1x1x1, .i32⟩
  | .hbm, ⟨69, _⟩ => ⟨S16x32x1, .i32⟩
  | .hbm, ⟨70, _⟩ => ⟨S16x32x1, .i1⟩
  | .hbm, ⟨71, _⟩ => ⟨S16x32x1, .i1⟩
  | .hbm, ⟨72, _⟩ => ⟨S_, .i1⟩
  | .hbm, ⟨73, _⟩ => ⟨S16x32, .i1⟩
  | .hbm, ⟨74, _⟩ => ⟨S16x32, .f32⟩
  | .hbm, ⟨75, _⟩ => ⟨S_, .f32⟩
  | .hbm, ⟨76, _⟩ => ⟨S16x32, .f32⟩
  | .hbm, ⟨77, _⟩ => ⟨S16x32, .f32⟩
  | .hbm, ⟨78, _⟩ => ⟨S_, .f32⟩
  | .hbm, ⟨79, _⟩ => ⟨S16x32x64, .f32⟩
  | .hbm, ⟨80, _⟩ => ⟨S16x32x64, .f32⟩
  | .hbm, ⟨81, _⟩ => ⟨S_, .f32⟩
  | .hbm, ⟨82, _⟩ => ⟨S32, .f32⟩
  | .hbm, ⟨83, _⟩ => ⟨S_, .f32⟩
  | .hbm, ⟨84, _⟩ => ⟨S32, .f32⟩
  | .hbm, ⟨85, _⟩ => ⟨S32, .f32⟩
  | .hbm, ⟨86, _⟩ => ⟨S32x1, .f32⟩
  | .hbm, ⟨87, _⟩ => ⟨S4x256x32, .f32⟩
  | .hbm, ⟨88, _⟩ => ⟨S4x4x32x64, .f32⟩
  | .hbm, ⟨89, _⟩ => ⟨S4x32x4x64, .f32⟩
  | .hbm, ⟨90, _⟩ => ⟨S4x32x256, .f32⟩
  | .hbm, ⟨91, _⟩ => ⟨S1x64, .f32⟩
  | .hbm, ⟨92, _⟩ => ⟨S4x64, .f32⟩
  | .hbm, ⟨93, _⟩ => ⟨S256, .f32⟩
  | .hbm, ⟨94, _⟩ => ⟨S256x1, .f32⟩
  | .hbm, ⟨95, _⟩ => ⟨S16x32x16384, .f32⟩
  | .local _ .vmem, ⟨0, _⟩ => ⟨S1x32x4096, .f32⟩
  | .local _ .vmem, ⟨1, _⟩ => ⟨S1x32x4096, .f32⟩
  | .local _ .vmem, ⟨2, _⟩ => ⟨S4x256x32, .f32⟩
  | .local _ .vmem, ⟨3, _⟩ => ⟨S4x32x256, .f32⟩
  | .local _ .vmem, ⟨4, _⟩ => ⟨S256x1, .f32⟩
  | .local _ .vmem, ⟨5, _⟩ => ⟨S32x1, .f32⟩
  | .local _ .vmem, ⟨6, _⟩ => ⟨S1x32x4096, .f32⟩
  | .local _ .vmem, ⟨7, _⟩ => ⟨S1x32x4096, .f32⟩
  | _, _ => ⟨S16x32x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1_0 : Ref sig .tc := ⟨.hbm, 7, rfl⟩
abbrev main_v0 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v1 : Ref sig .tc := ⟨.hbm, 31, rfl⟩
abbrev main_v2 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v3 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_c_2 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_3 : Ref sig .tc := ⟨.hbm, 72, rfl⟩
abbrev main_call3_v12 : Ref sig .tc := ⟨.hbm, 73, rfl⟩
abbrev main_call3_v13 : Ref sig .tc := ⟨.hbm, 74, rfl⟩
abbrev main_call3_cst : Ref sig .tc := ⟨.hbm, 75, rfl⟩
abbrev main_call3_v14 : Ref sig .tc := ⟨.hbm, 76, rfl⟩
abbrev main_v4 : Ref sig .tc := ⟨.hbm, 77, rfl⟩
abbrev main_cst : Ref sig .tc := ⟨.hbm, 78, rfl⟩
abbrev main_v5 : Ref sig .tc := ⟨.hbm, 79, rfl⟩
abbrev main_v6 : Ref sig .tc := ⟨.hbm, 80, rfl⟩
abbrev main_cst_0 : Ref sig .tc := ⟨.hbm, 81, rfl⟩
abbrev main_v7 : Ref sig .tc := ⟨.hbm, 82, rfl⟩
abbrev main_cst_1 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v15 : Index := Scalar.indexCast arg8
  let c0_10 : Index := 0#32
  let c0_11 : Index := 0#32
  ![v15.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v19 : Index := Scalar.indexCast arg8
  let c0_12 : Index := 0#32
  let c0_13 : Index := 0#32
  ![v19.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S16x32 : S_.BroadcastsInDim S16x32 (![] : Fin 0 → Fin S16x32.rank)
  bcast_S16x32_S16x32x1_0_1 : S16x32.BroadcastsInDim S16x32x1 (![0, 1] : Fin 2 → Fin S16x32x1.rank)
  bcast_S_S16x32x1 : S_.BroadcastsInDim S16x32x1 (![] : Fin 0 → Fin S16x32x1.rank)
  bcast_S1_S1x1x1_2 : S1.BroadcastsInDim S1x1x1 (![2] : Fin 1 → Fin S1x1x1.rank)
  bcast_S1x1x1_S16x32x1_0_1_2 : S1x1x1.BroadcastsInDim S16x32x1 (![0, 1, 2] : Fin 3 → Fin S16x32x1.rank)
  reducesTo_S16x32x1_S16x32_d2 : S16x32x1.ReducesTo [2] S16x32
  h_S_ : 0 < S_.numel
  bcast_S16x32_S64x16x32_1_2 : S16x32.BroadcastsInDim S64x16x32 (![1, 2] : Fin 2 → Fin S64x16x32.rank)
  bcast_S_S64x16x32 : S_.BroadcastsInDim S64x16x32 (![] : Fin 0 → Fin S64x16x32.rank)
  transposes_S64x16x32_S16x64x32_1_0_2 : S64x16x32.Transposes [1, 0, 2] S16x64x32
  bcast_S16x32_S16x32x64_0_1 : S16x32.BroadcastsInDim S16x32x64 (![0, 1] : Fin 2 → Fin S16x32x64.rank)
  bcast_S_S16x32x64 : S_.BroadcastsInDim S16x32x64 (![] : Fin 0 → Fin S16x32x64.rank)
  reducesTo_S16x32_S32_d0 : S16x32.ReducesTo [0] S32
  bcast_S_S32 : S_.BroadcastsInDim S32 (![] : Fin 0 → Fin S32.rank)
  shapeCasts_S32_S32x1 : S32.ShapeCasts S32x1
  shapeCasts_S16x64x32_S4x256x32 : S16x64x32.ShapeCasts S4x256x32
  shapeCasts_S16x32x64_S4x4x32x64 : S16x32x64.ShapeCasts S4x4x32x64
  transposes_S4x4x32x64_S4x32x4x64_0_2_1_3 : S4x4x32x64.Transposes [0, 2, 1, 3] S4x32x4x64
  shapeCasts_S4x32x4x64_S4x32x256 : S4x32x4x64.ShapeCasts S4x32x256
  shapeCasts_S64_S1x64 : S64.ShapeCasts S1x64
  bcast_S1x64_S4x64_0_1 : S1x64.BroadcastsInDim S4x64 (![0, 1] : Fin 2 → Fin S4x64.rank)
  shapeCasts_S4x64_S256 : S4x64.ShapeCasts S256
  shapeCasts_S256_S256x1 : S256.ShapeCasts S256x1
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  h_S1x256x32 : 0 < S1x256x32.numel
  shapeCasts_S1x256x32_S256x32 : S1x256x32.ShapeCasts S256x32
  h_S1x32x256 : 0 < S1x32x256.numel
  shapeCasts_S1x32x256_S32x256 : S1x32x256.ShapeCasts S32x256
  broadcasts_S256x1_S256x4096 : S256x1.Broadcasts S256x4096
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4096 : S32x1.Broadcasts S32x4096
  shapeCasts_S32x4096_S1x32x4096 : S32x4096.ShapeCasts S1x32x4096
  gather_S64x32_S16x32x1_S64x16x32_0_1_n_n_1_2_641_wf : GatherDims.WF S64x32 S16x32x1 S64x16x32 [0] [1] [] [1] [] 2 ![64, 1]
  gather_S32x64_S16x32x1_S16x32x64_2_0_n_n_0_2_164_wf : GatherDims.WF S32x64 S16x32x1 S16x32x64 [2] [0] [] [0] [] 2 ![1, 64]
  gather_S32_S16x32x1_S16x32_n_0_n_n_0_2_1_wf : GatherDims.WF S32 S16x32x1 S16x32 [] [0] [] [0] [] 2 ![1]
  dot_S256x32_S32x4096_S256x4096_1_0_0_1_n_n_wf : DotDims.WF S256x32 S32x4096 S256x4096 [1] [0] [0] [1] [] []
  dot_S32x256_S256x4096_S32x4096_1_0_0_1_n_n_wf : DotDims.WF S32x256 S256x4096 S32x4096 [1] [0] [0] [1] [] []
  hrank0 : 0 < grid0.rank
  k0_t1_ok : k0_t1_loop.OK
  k0_off1_inb : ∀ k0_t1 : Fin k0_t1_loop.trips, ∀ a, (k0_off1 k0_t1) a + S1x256x32.size a ≤ S4x256x32.size a
  k0_off2_inb : ∀ k0_t1 : Fin k0_t1_loop.trips, ∀ a, (k0_off2 k0_t1) a + S1x32x256.size a ≤ S4x32x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4096.size a ≤ S16x32x16384.size a
  hwx0_0 : ∀ i : grid0.Coords, EltTy.bits .f32 = 32 ∨ (Rect.block (s := S16x32x16384) S1x32x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x32.size a ≤ S4x256x32.size a
  hwx0_1 : ∀ i : grid0.Coords, EltTy.bits .f32 = 32 ∨ (Rect.block (s := S4x256x32) S4x256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x32x256.size a ≤ S4x32x256.size a
  hwx0_2 : ∀ i : grid0.Coords, EltTy.bits .f32 = 32 ∨ (Rect.block (s := S4x32x256) S4x32x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x4096.size a ≤ S16x32x16384.size a
  hwx0_5 : ∀ i : grid0.Coords, EltTy.bits .f32 = 32 ∨ (Rect.block (s := S16x32x16384) S1x32x4096.size (cc0_transform_5 i) (hinb0_5 i)).WholeWords (EltTy.packing .f32)

variable [Facts₀]

def comparator_i32_i32_d1 : BitVec 32 × BitVec 32 → BitVec 32 × BitVec 32 → BitVec 1 :=
  fun l r =>
    let v2 := IntOp.cmpi .slt l.1 r.1
    v2
def gather_S64x32_S16x32x1_S64x16x32_0_1_n_n_1_2_641 : GatherDims S64x32 S16x32x1 S64x16x32 where
  offsetDims := [0]
  collapsedSliceDims := [1]
  operandBatchingDims := []
  startIndicesBatchingDims := []
  startIndexMap := [1]
  indexVectorDim := 2
  sliceSizes := ![64, 1]
  wf := gather_S64x32_S16x32x1_S64x16x32_0_1_n_n_1_2_641_wf
def gather_S32x64_S16x32x1_S16x32x64_2_0_n_n_0_2_164 : GatherDims S32x64 S16x32x1 S16x32x64 where
  offsetDims := [2]
  collapsedSliceDims := [0]
  operandBatchingDims := []
  startIndicesBatchingDims := []
  startIndexMap := [0]
  indexVectorDim := 2
  sliceSizes := ![1, 64]
  wf := gather_S32x64_S16x32x1_S16x32x64_2_0_n_n_0_2_164_wf
def gather_S32_S16x32x1_S16x32_n_0_n_n_0_2_1 : GatherDims S32 S16x32x1 S16x32 where
  offsetDims := []
  collapsedSliceDims := [0]
  operandBatchingDims := []
  startIndicesBatchingDims := []
  startIndexMap := [0]
  indexVectorDim := 2
  sliceSizes := ![1]
  wf := gather_S32_S16x32x1_S16x32_n_0_n_n_0_2_1_wf
def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf
def dot_S32x256_S256x4096_S32x4096_1_0_0_1_n_n : DotDims S32x256 S256x4096 S32x4096 where
  lhsContracting := [1]
  rhsContracting := [0]
  lhsNonContracting := [0]
  rhsNonContracting := [1]
  lhsBatch := []
  rhsBatch := []
  wf := dot_S32x256_S256x4096_S32x4096_1_0_0_1_n_n_wf

abbrev win0_0 : Pipeline.Window sig grid0 :=
  Pipeline.Window.ofSpec (Memref.whole main_arg0) S1x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4x256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4x32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x32x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x32x16384 : Shape := ⟨3, ![16, 32, 16384]⟩
abbrev S16x32 : Shape := ⟨2, ![16, 32]⟩
abbrev S64x32 : Shape := ⟨2, ![64, 32]⟩
abbrev S64 : Shape := ⟨1, ![64]⟩
abbrev S32x64 : Shape := ⟨2, ![32, 64]⟩
abbrev S32 : Shape := ⟨1, ![32]⟩
abbrev S_ : Shape := ⟨0, ![]⟩
abbrev S16x32x1 : Shape := ⟨3, ![16, 32, 1]⟩
abbrev S16x16x32x16384 : Shape := ⟨4, ![16, 16, 32, 16384]⟩
abbrev S16x16x16384x32 : Shape := ⟨4, ![16, 16, 16384, 32]⟩
abbrev S16x16x16384x64 : Shape := ⟨4, ![16, 16, 16384, 64]⟩
abbrev S1x1x1x64 : Shape := ⟨4, ![1, 1, 1, 64]⟩
abbrev S1x1x1x32 : Shape := ⟨4, ![1, 1, 1, 32]⟩
abbrev S16x1x32x1 : Shape := ⟨4, ![16, 1, 32, 1]⟩
abbrev S1 : Shape := ⟨1, ![1]⟩
abbrev S1x1x1 : Shape := ⟨3, ![1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x32x16384, .f32⟩
  | .hbm, ⟨1, _⟩ => ⟨S16x32, .i32⟩
  | .hbm, ⟨2, _⟩ => ⟨S64x32, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S_, .i32⟩
  | .hbm, ⟨7, _⟩ => ⟨S16x32, .i32⟩
  | .hbm, ⟨8, _⟩ => ⟨S16x32, .i1⟩
  | .hbm, ⟨9, _⟩ => ⟨S_, .i32⟩
  | .hbm, ⟨10, _⟩ => ⟨S16x32, .i32⟩
  | .hbm, ⟨11, _⟩ => ⟨S16x32, .i32⟩
  | .hbm, ⟨12, _⟩ => ⟨S16x32, .i32⟩
  | .hbm, ⟨13, _⟩ => ⟨S16x32x1, .i32⟩
  | .hbm, ⟨14, _⟩ => ⟨S16x16x32x16384, .f32⟩
  | .hbm, ⟨15, _⟩ => ⟨S16x16x16384x32, .f32⟩
  | .hbm, ⟨16, _⟩ => ⟨S16x16x16384x64, .f32⟩
  | .hbm, ⟨17, _⟩ => ⟨S1x1x1x64, .f32⟩
  | .hbm, ⟨18, _⟩ => ⟨S16x16x16384x64, .f32⟩
  | .hbm, ⟨19, _⟩ => ⟨S16x16x16384x64, .f32⟩
  | .hbm, ⟨20, _⟩ => ⟨S_, .f32⟩
  | .hbm, ⟨21, _⟩ => ⟨S16x16x16384x64, .f32⟩
  | .hbm, ⟨22, _⟩ => ⟨S16x16x16384x64, .f32⟩
  | .hbm, ⟨23, _⟩ => ⟨S16x16x16384x32, .f32⟩
  | .hbm, ⟨24, _⟩ => ⟨S1x1x1x32, .f32⟩
  | .hbm, ⟨25, _⟩ => ⟨S16x16x16384x32, .f32⟩
  | .hbm, ⟨26, _⟩ => ⟨S16x16x16384x32, .f32⟩
  | .hbm, ⟨27, _⟩ => ⟨S16x16x32x16384, .f32⟩
  | .hbm, ⟨28, _⟩ => ⟨S16x32, .i32⟩
  | .hbm, ⟨29, _⟩ => ⟨S16x32, .i32⟩
  | .hbm, ⟨30, _⟩ => ⟨S16x32, .i32⟩
  | .hbm, ⟨31, _⟩ => ⟨S16x1x32x1, .i32⟩
  | .hbm, ⟨32, _⟩ => ⟨S_, .i32⟩
  | .hbm, ⟨33, _⟩ => ⟨S16x1x32x1, .i32⟩
  | .hbm, ⟨34, _⟩ => ⟨S16x1x32x1, .i1⟩
  | .hbm, ⟨35, _⟩ => ⟨S_, .i32⟩
  | .hbm, ⟨36, _⟩ => ⟨S16x1x32x1, .i32⟩
  | .hbm, ⟨37, _⟩ => ⟨S16x1x32x1, .i32⟩
  | .hbm, ⟨38, _⟩ => ⟨S16x1x32x1, .i32⟩
  | .hbm, ⟨39, _⟩ => ⟨S16x32x1, .i32⟩
  | .hbm, ⟨40, _⟩ => ⟨S1, .i32⟩
  | .hbm, ⟨41, _⟩ => ⟨S_, .i32⟩
  | .hbm, ⟨42, _⟩ => ⟨S16x32x1, .i32⟩
  | .hbm, ⟨43, _⟩ => ⟨S16x32x1, .i1⟩
  | .hbm, ⟨44, _⟩ => ⟨S1x1x1, .i32⟩
  | .hbm, ⟨45, _⟩ => ⟨S16x32x1, .i32⟩
  | .hbm, ⟨46, _⟩ => ⟨S16x32x1, .i1⟩
  | .hbm, ⟨47, _⟩ => ⟨S16x32x1, .i1⟩
  | .hbm, ⟨48, _⟩ => ⟨S_, .i1⟩
  | .hbm, ⟨49, _⟩ => ⟨S16x32, .i1⟩
  | .hbm, ⟨50, _⟩ => ⟨S16x16x32x16384, .f32⟩
  | .hbm, ⟨51, _⟩ => ⟨S16x16x32x16384, .i1⟩
  | .hbm, ⟨52, _⟩ => ⟨S_, .f32⟩
  | .hbm, ⟨53, _⟩ => ⟨S16x16x32x16384, .f32⟩
  | .hbm, ⟨54, _⟩ => ⟨S16x16x32x16384, .f32⟩
  | .hbm, ⟨55, _⟩ => ⟨S_, .f32⟩
  | .hbm, ⟨56, _⟩ => ⟨S16x32x16384, .f32⟩
  | .hbm, ⟨57, _⟩ => ⟨S_, .f32⟩
  | .hbm, ⟨58, _⟩ => ⟨S16x32x16384, .f32⟩
  | .hbm, ⟨59, _⟩ => ⟨S16x32x16384, .f32⟩
  | _, _ => ⟨S16x32x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_v0 : Ref sig .tc := ⟨.hbm, 28, rfl⟩
abbrev main_call1_v1_0 : Ref sig .tc := ⟨.hbm, 29, rfl⟩
abbrev main_v18 : Ref sig .tc := ⟨.hbm, 30, rfl⟩
abbrev main_v19 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_cst_1 : Ref sig .tc := ⟨.hbm, 57, rfl⟩
abbrev main_v22 : Ref sig .tc := ⟨.hbm, 58, rfl⟩
abbrev main_v23 : Ref sig .tc := ⟨.hbm, 59, rfl⟩

abbrev nD : Nat := 1
abbrev τ : Topo := Topo.v7x

variable {F : FTy → Type} [FloatOps F]

class Facts₀ : Prop where
  bcast_S_S16x32 : S_.BroadcastsInDim S16x32 (![] : Fin 0 → Fin S16x32.rank)
  bcast_S16x32_S16x32x1_0_1 : S16x32.BroadcastsInDim S16x32x1 (![0, 1] : Fin 2 → Fin S16x32x1.rank)
  transposes_S16x16x32x16384_S16x16x16384x32_1_0_3_2 : S16x16x32x16384.Transposes [1, 0, 3, 2] S16x16x16384x32
  bcast_S64_S1x1x1x64_3 : S64.BroadcastsInDim S1x1x1x64 (![3] : Fin 1 → Fin S1x1x1x64.rank)
  bcast_S1x1x1x64_S16x16x16384x64_0_1_2_3 : S1x1x1x64.BroadcastsInDim S16x16x16384x64 (![0, 1, 2, 3] : Fin 4 → Fin S16x16x16384x64.rank)
  bcast_S_S16x16x16384x64 : S_.BroadcastsInDim S16x16x16384x64 (![] : Fin 0 → Fin S16x16x16384x64.rank)
  bcast_S32_S1x1x1x32_3 : S32.BroadcastsInDim S1x1x1x32 (![3] : Fin 1 → Fin S1x1x1x32.rank)
  bcast_S1x1x1x32_S16x16x16384x32_0_1_2_3 : S1x1x1x32.BroadcastsInDim S16x16x16384x32 (![0, 1, 2, 3] : Fin 4 → Fin S16x16x16384x32.rank)
  transposes_S16x16x16384x32_S16x16x32x16384_0_1_3_2 : S16x16x16384x32.Transposes [0, 1, 3, 2] S16x16x32x16384
  bcast_S16x32_S16x1x32x1_0_2 : S16x32.BroadcastsInDim S16x1x32x1 (![0, 2] : Fin 2 → Fin S16x1x32x1.rank)
  bcast_S_S16x1x32x1 : S_.BroadcastsInDim S16x1x32x1 (![] : Fin 0 → Fin S16x1x32x1.rank)
  shapeCasts_S16x1x32x1_S16x32x1 : S16x1x32x1.ShapeCasts S16x32x1
  bcast_S_S16x32x1 : S_.BroadcastsInDim S16x32x1 (![] : Fin 0 → Fin S16x32x1.rank)
  bcast_S1_S1x1x1_2 : S1.BroadcastsInDim S1x1x1 (![2] : Fin 1 → Fin S1x1x1.rank)
  bcast_S1x1x1_S16x32x1_0_1_2 : S1x1x1.BroadcastsInDim S16x32x1 (![0, 1, 2] : Fin 3 → Fin S16x32x1.rank)
  reducesTo_S16x32x1_S16x32_d2 : S16x32x1.ReducesTo [2] S16x32
  h_S_ : 0 < S_.numel
  bcast_S16x32_S16x16x32x16384_0_2 : S16x32.BroadcastsInDim S16x16x32x16384 (![0, 2] : Fin 2 → Fin S16x16x32x16384.rank)
  bcast_S_S16x16x32x16384 : S_.BroadcastsInDim S16x16x32x16384 (![] : Fin 0 → Fin S16x16x32x16384.rank)
  reducesTo_S16x16x32x16384_S16x32x16384_d0 : S16x16x32x16384.ReducesTo [0] S16x32x16384
  bcast_S_S16x32x16384 : S_.BroadcastsInDim S16x32x16384 (![] : Fin 0 → Fin S16x32x16384.rank)
  gather_S16x32x16384_S16x32x1_S16x16x32x16384_03_1_n_n_1_2_16116384_wf : GatherDims.WF S16x32x16384 S16x32x1 S16x16x32x16384 [0, 3] [1] [] [1] [] 2 ![16, 1, 16384]
  dot_S16x16x16384x32_S64x32_S16x16x16384x64_3_1_012_0_n_n_wf : DotDims.WF S16x16x16384x32 S64x32 S16x16x16384x64 [3] [1] [0, 1, 2] [0] [] []
  dot_S16x16x16384x64_S32x64_S16x16x16384x32_3_1_012_0_n_n_wf : DotDims.WF S16x16x16384x64 S32x64 S16x16x16384x32 [3] [1] [0, 1, 2] [0] [] []
  gather_S16x16x32x16384_S16x32x1_S16x16x32x16384_13_2_0_0_2_2_116116384_wf : GatherDims.WF S16x16x32x16384 S16x32x1 S16x16x32x16384 [1, 3] [2] [0] [2] [0] 2 ![1, 16, 1, 16384]

variable [Facts₀]

def gather_S16x32x16384_S16x32x1_S16x16x32x16384_03_1_n_n_1_2_16116384 : GatherDims S16x32x16384 S16x32x1 S16x16x32x16384 where
  offsetDims := [0, 3]
  collapsedSliceDims := [1]
  operandBatchingDims := []
  startIndicesBatchingDims := []
  startIndexMap := [1]
  indexVectorDim := 2
  sliceSizes := ![16, 1, 16384]
  wf := gather_S16x32x16384_S16x32x1_S16x16x32x16384_03_1_n_n_1_2_16116384_wf
def dot_S16x16x16384x32_S64x32_S16x16x16384x64_3_1_012_0_n_n : DotDims S16x16x16384x32 S64x32 S16x16x16384x64 where
  lhsContracting := [3]
  rhsContracting := [1]
  lhsNonContracting := [0, 1, 2]
  rhsNonContracting := [0]
  lhsBatch := []
  rhsBatch := []
  wf := dot_S16x16x16384x32_S64x32_S16x16x16384x64_3_1_012_0_n_n_wf
def dot_S16x16x16384x64_S32x64_S16x16x16384x32_3_1_012_0_n_n : DotDims S16x16x16384x64 S32x64 S16x16x16384x32 where
  lhsContracting := [3]
  rhsContracting := [1]
  lhsNonContracting := [0, 1, 2]
  rhsNonContracting := [0]
  lhsBatch := []
  rhsBatch := []
  wf := dot_S16x16x16384x64_S32x64_S16x16x16384x32_3_1_012_0_n_n_wf
def comparator_i32_i32_d1 : BitVec 32 × BitVec 32 → BitVec 32 × BitVec 32 → BitVec 1 :=
  fun l r =>
    let v2 := IntOp.cmpi .slt l.1 r.1
    v2
def gather_S16x16x32x16384_S16x32x1_S16x16x32x16384_13_2_0_0_2_2_116116384 : GatherDims S16x16x32x16384 S16x32x1 S16x16x32x16384 where
  offsetDims := [1, 3]
  collapsedSliceDims := [2]
  operandBatchingDims := [0]
  startIndicesBatchingDims := [0]
  startIndexMap := [2]
  indexVectorDim := 2
  sliceSizes := ![1, 16, 1, 16384]
  wf := gather_S16x16x32x16384_S16x32x1_S16x16x32x16384_13_2_0_0_2_2_116116384_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Basic
import Mathlib.Algebra.BigOperators.Ring.Finset
import Mathlib.Data.Fintype.BigOperators
import Mathlib.Data.EReal.Basic
import Mathlib.Order.MinMax
import Mathlib.Tactic.Choose
import Mathlib.Tactic.NormNum
import Mathlib.Tactic.Ring

/-!
# One output element of the permutation-averaged two-layer network, two ways

Sixteen permutations of the 32 input features are applied to a column, a two-layer network with a
rectifier in the middle is applied to each permuted column, each result is permuted back, and the
sixteen results are averaged. The kernel instead permutes the weights: it stacks four permuted copies of
the first layer into a 256-row table and four permuted, pre-scaled copies of the second layer into a
256-column table, and adds up four such stacked products. This file states both forms of one output
element over plain coordinate functions and proves them equal for finite inputs.
-/

noncomputable section

open scoped BigOperators

namespace Cert.Sym

open Idealize.ShloMosaic

/-- Row `k` of group `g` of the stacked tables belongs to permutation `4 g + k / 64`. -/
def permOf (g : Fin 4) (k : Fin 256) : Fin 16 := ⟨4 * g.val + k.val / 64, by omega⟩
/-- Row `k` of a stacked table is hidden unit `k % 64`. -/
def hidOf (k : Fin 256) : Fin 64 := ⟨k.val % 64, by omega⟩

/-! ### The two float words -/

/-- The float word `0x41800000` is sixteen. -/
theorem ofBits_sixteen : Ideal.ofBits .f32 0x41800000#32 = ((16 : ℝ) : EReal) := by
  simp [Ideal.ofBits, Ideal.ieee, -EReal.coe_mul]; norm_num

/-- The float word `0x3D800000` is one sixteenth. -/
theorem ofBits_sixteenth : Ideal.ofBits .f32 0x3D800000#32 = ((1 / 16 : ℝ) : EReal) := by
  simp [Ideal.ofBits, Ideal.ieee, -EReal.coe_mul]; norm_num

/-! ### The inclusion of the reals commutes with finite sums and with `max` -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-! ### Group and stacked row against permutation and hidden unit -/

/-- The pair (group `g`, stacked row `k = 64 j + h`) is the pair (permutation `4 g + j`, hidden unit `h`). -/
def reidx : (Fin 4 × Fin 256) ≃ (Fin 16 × Fin 64) where
  toFun gk := (permOf gk.1 gk.2, hidOf gk.2)
  invFun ph := (⟨ph.1.val / 4, by omega⟩, ⟨64 * (ph.1.val % 4) + ph.2.val, by omega⟩)
  left_inv := by
    rintro ⟨g, k⟩
    simp only [permOf, hidOf, Prod.mk.injEq]
    constructor <;> (apply Fin.ext; simp only []; omega)
  right_inv := by
    rintro ⟨p, h⟩
    simp only [permOf, hidOf, Prod.mk.injEq]
    constructor <;> (apply Fin.ext; simp only []; omega)

/-- Summing over groups and stacked rows is summing over permutations and hidden units. -/
theorem sum_reidx (F : Fin 16 → Fin 64 → ℝ) :
    ∑ g : Fin 4, ∑ k : Fin 256, F (permOf g k) (hidOf k) = ∑ p : Fin 16, ∑ h : Fin 64, F p h := by
  rw [← Fintype.sum_prod_type' (fun g k => F (permOf g k) (hidOf k)), ← Fintype.sum_prod_type' F]
  exact Fintype.sum_equiv reidx _ _ (fun _ => rfl)

/-- The first layer read through the sorted weights is the first layer on the column read through `π p`. -/
theorem inner_reidx (xr : Fin 32 → ℝ) (w : Fin 32 → ℝ) (πp σp : Fin 32 → Fin 32)
    (hσ : Function.Bijective σp) (hπσ : ∀ m, πp (σp m) = m) :
    ∑ n' : Fin 32, w (σp n') * xr n' = ∑ m : Fin 32, xr (πp m) * w m := by
  rw [← Equiv.sum_comp (Equiv.ofBijective σp hσ) (fun m => xr (πp m) * w m)]
  refine Finset.sum_congr rfl (fun n' _ => ?_)
  simp only [Equiv.ofBijective_apply, hπσ]
  ring

/-- The identity over the reals. -/
theorem real_identity (xr : Fin 32 → ℝ) (W1r : Fin 64 → Fin 32 → ℝ) (b1r : Fin 64 → ℝ)
    (W2r : Fin 32 → Fin 64 → ℝ) (b2r : Fin 32 → ℝ) (π σ : Fin 16 → Fin 32 → Fin 32)
    (hσ : ∀ p, Function.Bijective (σ p)) (hπσ : ∀ p m, π p (σ p m) = m) (n : Fin 32) :
    (∑ g : Fin 4, ∑ k : Fin 256, W2r (σ (permOf g k) n) (hidOf k) * (1 / 16) *
        max ((∑ n' : Fin 32, W1r (hidOf k) (σ (permOf g k) n') * xr n') + b1r (hidOf k)) 0)
      + (∑ p : Fin 16, b2r (σ p n)) * (1 / 16)
    = (∑ p : Fin 16, ((∑ h : Fin 64, max ((∑ n' : Fin 32, xr (π p n') * W1r h n') + b1r h) 0 * W2r (σ p n) h)
        + b2r (σ p n))) * (1 / 16) := by
  rw [sum_reidx (fun p h => W2r (σ p n) h * (1 / 16) *
        max ((∑ n' : Fin 32, W1r h (σ p n') * xr n') + b1r h) 0)]
  rw [Finset.sum_add_distrib, add_mul]
  congr 1
  rw [Finset.sum_mul]
  refine Finset.sum_congr rfl (fun p _ => ?_)
  rw [Finset.sum_mul]
  refine Finset.sum_congr rfl (fun h _ => ?_)
  rw [inner_reidx xr (W1r h) (π p) (σ p) (hσ p) (hπσ p)]
  ring

/-- One group's contribution to output feature `n`: the stacked second layer applied to the rectified
    stacked first layer of the column. -/
def grpTerm (xc : Fin 32 → EReal) (w1g : Fin 4 → Fin 256 → Fin 32 → EReal) (w2g : Fin 4 → Fin 32 → Fin 256 → EReal)
    (b1g : Fin 256 → EReal) (n : Fin 32) (g : Fin 4) : EReal :=
  ∑ k : Fin 256, w2g g n k * max ((∑ n' : Fin 32, w1g g k n' * xc n') + b1g k) 0

/-- The kernel's element: four group terms added to zero in order, then the folded bias. -/
def kerForm (xc : Fin 32 → EReal) (w1g : Fin 4 → Fin 256 → Fin 32 → EReal) (w2g : Fin 4 → Fin 32 → Fin 256 → EReal)
    (b1g : Fin 256 → EReal) (b2f : Fin 32 → EReal) (n : Fin 32) : EReal :=
  ((((0 + grpTerm xc w1g w2g b1g n 0) + grpTerm xc w1g w2g b1g n 1) + grpTerm xc w1g w2g b1g n 2)
    + grpTerm xc w1g w2g b1g n 3) + b2f n

/-- The reference's element: per permutation `p` the network on the column read through `π p`, output
    feature `σ p n`; summed from zero over the sixteen permutations and divided by `d`. -/
def refForm (xc : Fin 32 → EReal) (W1 : Fin 64 → Fin 32 → EReal) (b1 : Fin 64 → EReal) (W2 : Fin 32 → Fin 64 → EReal)
    (b2 : Fin 32 → EReal) (π σ : Fin 16 → Fin 32 → Fin 32) (d : EReal) (n : Fin 32) : EReal :=
  Ideal.div (0 + ∑ p : Fin 16,
    ((∑ hh : Fin 64, max ((∑ n' : Fin 32, xc (π p n') * W1 hh n') + b1 hh) 0 * W2 (σ p n) hh) + b2 (σ p n))) d

/-- The stacked tables as the kernel's host code builds them from the weights and the sorting maps. -/
def w1Stack (W1 : Fin 64 → Fin 32 → EReal) (σ : Fin 16 → Fin 32 → Fin 32) : Fin 4 → Fin 256 → Fin 32 → EReal :=
  fun g k n' => W1 (hidOf k) (σ (permOf g k) n')
def w2Stack (W2 : Fin 32 → Fin 64 → EReal) (σ : Fin 16 → Fin 32 → Fin 32) (s : EReal) : Fin 4 → Fin 32 → Fin 256 → EReal :=
  fun g n k => W2 (σ (permOf g k) n) (hidOf k) * s
def b1Stack (b1 : Fin 64 → EReal) : Fin 256 → EReal := fun k => b1 (hidOf k)
def b2Fold (b2 : Fin 32 → EReal) (σ : Fin 16 → Fin 32 → Fin 32) (d : EReal) : Fin 32 → EReal :=
  fun n => Ideal.div (0 + ∑ p : Fin 16, b2 (σ p n)) d

/-- For finite inputs, when every `σ p` is a bijection with `π p ∘ σ p = id`, the kernel's element over the
    stacked tables is the reference's element. The scale is the float `0.0625` and the divisor the float `16`. -/
theorem kerForm_eq_refForm (xc : Fin 32 → EReal) (W1 : Fin 64 → Fin 32 → EReal) (b1 : Fin 64 → EReal)
    (W2 : Fin 32 → Fin 64 → EReal) (b2 : Fin 32 → EReal) (π σ : Fin 16 → Fin 32 → Fin 32)
    (hx : ∀ i, ∃ r : ℝ, xc i = (r : EReal)) (hW1 : ∀ i j, ∃ r : ℝ, W1 i j = (r : EReal)) (hb1 : ∀ i, ∃ r : ℝ, b1 i = (r : EReal))
    (hW2 : ∀ i j, ∃ r : ℝ, W2 i j = (r : EReal)) (hb2 : ∀ i, ∃ r : ℝ, b2 i = (r : EReal))
    (hσ : ∀ p, Function.Bijective (σ p)) (hπσ : ∀ p m, π p (σ p m) = m) (n : Fin 32) :
    kerForm xc (w1Stack W1 σ) (w2Stack W2 σ (Ideal.ofBits .f32 0x3D800000#32)) (b1Stack b1)
        (b2Fold b2 σ (Ideal.ofBits .f32 0x41800000#32)) n
      = refForm xc W1 b1 W2 b2 π σ (Ideal.ofBits .f32 0x41800000#32) n := by
  choose xr hxr using hx
  choose W1r hW1r using hW1
  choose b1r hb1r using hb1
  choose W2r hW2r using hW2
  choose b2r hb2r using hb2
  have key := real_identity xr W1r b1r W2r b2r π σ hσ hπσ n
  simp only [kerForm, grpTerm, refForm, w1Stack, w2Stack, b1Stack, b2Fold, ofBits_sixteen, ofBits_sixteenth,
    Ideal.div_coe (show (16 : ℝ) ≠ 0 by norm_num), hxr, hW1r, hb1r, hW2r, hb2r, zero_add]
  simp only [← EReal.coe_mul, ← coe_sum, ← EReal.coe_add, ← EReal.coe_zero, ← coe_max]
  rw [Fin.sum_univ_four] at key
  exact congrArg (fun r : ℝ => (r : EReal)) key

end Cert.Sym

end
-- ==== Proof.LibArgsortRows.lean ====
import Idealize.ShloMosaic.Lib.SortFacts
import Idealize.ShloMosaic.Lib.ValueIdx
import Mathlib.Logic.Equiv.Defs

/-!
# A stable sort of the rows of an integer matrix, and its argsort

A stable sort of an `R × N` matrix of 32-bit words along axis 1 reads every row through one self-map of
the row's positions, a bijection. Sorting the matrix together with the iota along that axis (jnp's
`argsort`) returns that self-map as words. If the rows sort to `0, 1, …, N - 1` (each row is a
permutation of the positions), the word at the sorted position `n` is `n`, so the self-map is a right
inverse of the row read as a map of positions.
-/

namespace Cert.LibArgsortRows

open Idealize.ShloMosaic Idealize.ShloMosaic.ValueIdx

variable {R N : Nat}

/-- Moving along axis 1 from `(p, n)` to position `k` lands at `(p, k)`. -/
private theorem along_one (p : Fin R) (n : Fin N) (k : Fin ((⟨2, ![R, N]⟩ : Shape).size ⟨1, Nat.one_lt_two⟩)) :
    Shape.Idx.along (s := ⟨2, ![R, N]⟩) (ix2 p n) ⟨1, Nat.one_lt_two⟩ k = ix2 p (k : Fin N) := by
  funext a
  unfold Shape.Idx.along
  match a with
  | ⟨0, _⟩ => exact Function.update_of_ne (Fin.ne_of_val_ne Nat.zero_ne_one) _ _
  | ⟨1, _⟩ => exact Function.update_self ..

/-- The self-map of the positions of row `p` through which a stable sort along axis 1 reads that row. -/
noncomputable def rowSort (cmp : BitVec 32 → BitVec 32 → BitVec 1) (keys : IVec ⟨2, ![R, N]⟩ 32) (p : Fin R) :
    Fin N → Fin N :=
  sortedFrom (fun k k' => cmp (keys (ix2 p k)) (keys (ix2 p k')) == 1#1)

/-- It is a bijection of the positions. -/
theorem rowSort_bijective (cmp : BitVec 32 → BitVec 32 → BitVec 1) (keys : IVec ⟨2, ![R, N]⟩ 32) (p : Fin R) :
    Function.Bijective (rowSort cmp keys p) :=
  ⟨sortedFrom_injective _, sortedFrom_surjective _⟩

/-- The sorted matrix at row `p`, position `n` is the row's word at the position the self-map names. -/
theorem sort_apply (cmp : BitVec 32 → BitVec 32 → BitVec 1) (keys : IVec ⟨2, ![R, N]⟩ 32) (p : Fin R) (n : Fin N) :
    Host.sort ⟨2, ![R, N]⟩ 1 cmp keys (ix2 p n) = keys (ix2 p (rowSort cmp keys p n)) := by
  unfold Host.sort
  rw [dif_pos (show 1 < (⟨2, ![R, N]⟩ : Shape).rank from Nat.one_lt_two)]
  simp only [along_one]
  rfl

/-- The argsort (the iota carried through a two-operand sort whose comparator looks at the keys only) at
    row `p`, position `n` is the word of the position the self-map names. -/
theorem sort2_iota_snd_apply (cmp2 : BitVec 32 × BitVec 32 → BitVec 32 × BitVec 32 → BitVec 1)
    (cmp : BitVec 32 → BitVec 32 → BitVec 1) (hc : ∀ a b, cmp2 a b = cmp a.1 b.1)
    (keys : IVec ⟨2, ![R, N]⟩ 32) (p : Fin R) (n : Fin N) :
    (Host.sort2 ⟨2, ![R, N]⟩ 1 cmp2 keys (iotaInDim ⟨2, ![R, N]⟩ 32 1)).2 (ix2 p n)
      = BitVec.ofNat 32 (rowSort cmp keys p n).val := by
  unfold Host.sort2
  rw [dif_pos (show 1 < (⟨2, ![R, N]⟩ : Shape).rank from Nat.one_lt_two)]
  simp only [along_one, hc]
  rfl

/-- If the matrix sorts to the iota, the word of row `p` at the position the self-map gives for `n` is `n`. -/
theorem key_rowSort_of_sort_eq_iota (cmp : BitVec 32 → BitVec 32 → BitVec 1) (keys : IVec ⟨2, ![R, N]⟩ 32)
    (h : ∀ j, Host.sort ⟨2, ![R, N]⟩ 1 cmp keys j = iotaInDim ⟨2, ![R, N]⟩ 32 1 j) (p : Fin R) (n : Fin N) :
    keys (ix2 p (rowSort cmp keys p n)) = BitVec.ofNat 32 n.val := by
  have e := h (ix2 p n)
  rw [sort_apply] at e
  exact e

/-- If the matrix sorts to the iota, every word is the word of a position, and the map of positions so
    defined has the sorting self-map as a right inverse. -/
theorem exists_rowPerm_of_sort_eq_iota (cmp : BitVec 32 → BitVec 32 → BitVec 1) (keys : IVec ⟨2, ![R, N]⟩ 32)
    (h : ∀ j, Host.sort ⟨2, ![R, N]⟩ 1 cmp keys j = iotaInDim ⟨2, ![R, N]⟩ 32 1 j) :
    ∃ π : Fin R → Fin N → Fin N, (∀ p n, keys (ix2 p n) = BitVec.ofNat 32 (π p n).val)
      ∧ ∀ p m, π p (rowSort cmp keys p m) = m := by
  refine ⟨fun p => (Equiv.ofBijective _ (rowSort_bijective cmp keys p)).symm, fun p n => ?_, fun p m => ?_⟩
  · -- the word at `n` is the word at the sorted position of the preimage of `n`, which is that preimage
    have e := key_rowSort_of_sort_eq_iota cmp keys h p ((Equiv.ofBijective _ (rowSort_bijective cmp keys p)).symm n)
    rwa [Equiv.ofBijective_apply_symm_apply _ (rowSort_bijective cmp keys p) n] at e
  · exact Equiv.ofBijective_symm_apply_apply _ _ m

end Cert.LibArgsortRows
-- ==== Proof.PreFacts.lean ====
import proofs.«411942_j19035295055965_2_alg».proof.Pre_finite_inputs
import Idealize.ShloMosaic.Lib.ReduceAll
import Idealize.ShloMosaic.Lib.ValueIdx
import Idealize.ShloMosaic.Lib.StableHlo.Predicate
import Idealize.ShloMosaic.PureOps.Ideal.Laws

/-!
# What the precondition says

The precondition is the conjunction of six whole-array tests: for each of the five float inputs, that the
absolute value of every entry is below `+∞`; and that the permutation matrix, stably sorted along its
rows, is the matrix whose every row is `0, 1, …, 31`. Read at the extended reals, the first five say every
entry is a real number, and the sixth is an equation between the sorted matrix and the iota at every index.
-/

noncomputable section

namespace Cert.Pre_finite_inputs.Decode

open Cert.Pre_finite_inputs Idealize.ShloMosaic Idealize.ShloMosaic.ValueIdx

variable [Facts]

/-- The rank-0 shape has exactly one index: two of them agree on every axis, there being none. -/
instance subsingleton_scalar_idx : Subsingleton S_.Idx := ⟨fun a b => funext fun d => d.elim0⟩

/-- The f32 pattern with all exponent bits set and a zero mantissa is `+∞`, the top of the extended reals. -/
theorem ofBits_inf : Ideal.ofBits .f32 0x7F800000#32 = (⊤ : EReal) := by
  simp [Ideal.ofBits, Ideal.ieee]

/-- An extended real whose absolute value `max a (-a)` is strictly below `⊤` is a real number: at `⊥` and at `⊤`
    the absolute value is `⊤` itself, which is not below `⊤`. -/
theorem real_of_abs_lt_top (a : EReal) (h : Ideal.cmp .olt (max a (-a)) (⊤ : EReal) = 1#1) :
    ∃ r : ℝ, a = (r : EReal) := by
  induction a using EReal.rec with
  | bot => exact absurd h (by simp [Ideal.cmp])
  | coe r => exact ⟨r, rfl⟩
  | top => exact absurd h (by simp [Ideal.cmp])

/-- One element of a whole-array test `|v| < +∞`: the scalar `+∞` broadcast to the array's shape reads `⊤` at
    every index, so the element's comparison being `1` makes that entry of `v` real. -/
theorem entry_real {s : Shape} (v : FVec Ideal s .f32) (hb : S_.BroadcastsInDim s (![] : Fin 0 → Fin s.rank))
    (i : s.Idx)
    (h : cmpf .olt (Host.absf v) (broadcastInDim s ![] hb (constant S_ .f32 0x7F800000#32)) i = 1#1) :
    ∃ r : ℝ, v i = (r : EReal) := by
  apply real_of_abs_lt_top
  have e : broadcastInDim s ![] hb (constant (F := Ideal) S_ .f32 0x7F800000#32) i = (⊤ : EReal) := by
    show Ideal.ofBits .f32 0x7F800000#32 = _
    exact ofBits_inf
  have h' : Ideal.cmp .olt (max (v i) (-(v i)))
      (broadcastInDim s ![] hb (constant (F := Ideal) S_ .f32 0x7F800000#32) i) = 1#1 := h
  rw [e] at h'
  exact h'

/-- The conjunction of two bits is `1` exactly when both are. -/
theorem and_ix0 (a b : IVec S_ 1) (h : andi a b ix0 = 1#1) : a ix0 = 1#1 ∧ b ix0 = 1#1 :=
  IntOp.andi_eq_one.1 h

/-- If the precondition's value is the bit `1`, every float entry is real and the permutation matrix sorts,
    row by row, to the positions in order. -/
theorem decode (x : FVec Ideal S16x32x16384 .f32) (perms : IVec S16x32 32) (W1 : FVec Ideal S64x32 .f32)
    (b1 : FVec Ideal S64 .f32) (W2 : FVec Ideal S32x64 .f32) (b2 : FVec Ideal S32 .f32)
    (h : fn (F := Ideal) x perms W1 b1 W2 b2 = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal))
      ∧ ∀ j, Host.sort S16x32 1 comparator_i32_d1 perms j = iotaInDim S16x32 32 1 j := by
  have h0 := congrFun h ValueIdx.ix0
  dsimp only [fn, fn_part1] at h0
  -- the sorted matrix stays an opaque array: only its comparison with the iota is read
  generalize Host.sort S16x32 1 comparator_i32_d1 perms = srt at h0 ⊢
  -- the value is a left-nested conjunction of six bits; peel them from the outside in
  obtain ⟨h5, e6⟩ := and_ix0 _ _ h0
  obtain ⟨h4, e5⟩ := and_ix0 _ _ h5
  obtain ⟨h3, e4⟩ := and_ix0 _ _ h4
  obtain ⟨h2, e3⟩ := and_ix0 _ _ h3
  obtain ⟨e1, e2⟩ := and_ix0 _ _ h2
  -- each bit is an `and` over a whole array, so every element of that array is `1`
  refine ⟨fun i => entry_real x _ i (Host.reduce_andi_all _ _ _ _ _ e1 i),
    fun i => entry_real W1 _ i (Host.reduce_andi_all _ _ _ _ _ e2 i),
    fun i => entry_real b1 _ i (Host.reduce_andi_all _ _ _ _ _ e3 i),
    fun i => entry_real W2 _ i (Host.reduce_andi_all _ _ _ _ _ e4 i),
    fun i => entry_real b2 _ i (Host.reduce_andi_all _ _ _ _ _ e5 i),
    fun j => IntOp.cmpi_eq.1 (Host.reduce_andi_all _ _ _ _ _ e6 j)⟩

end Cert.Pre_finite_inputs.Decode

end
-- ==== Proof.KerArgs.lean ====
import proofs.«411942_j19035295055965_2_alg».proof.Proof.Gen.KernelIdeal.Frame
import Idealize.ShloMosaic.Lib.ValueIdx

/-!
# The program's arguments and the region's tables, named at their literal types

The six argument arrays of the program on a core, the four tables its host code builds before the
region, and the argsort of the permutation matrix, each as a function on the indices of its literal
shape, so that arithmetic on their entries elaborates.
-/

noncomputable section

open scoped BigOperators

namespace Cert.KernelIdeal.HostTables

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The program's arguments on core `c`, each at its literal type. -/
abbrev argX (c : Dev nD) : FVec Ideal S16x32x16384 .f32 := m ((c : Thread nD τ).loc main_arg0)
abbrev argPerms (c : Dev nD) : IVec S16x32 32 := m ((c : Thread nD τ).loc main_arg1)
abbrev argW1 (c : Dev nD) : FVec Ideal S64x32 .f32 := m ((c : Thread nD τ).loc main_arg2)
abbrev argB1 (c : Dev nD) : FVec Ideal S64 .f32 := m ((c : Thread nD τ).loc main_arg3)
abbrev argW2 (c : Dev nD) : FVec Ideal S32x64 .f32 := m ((c : Thread nD τ).loc main_arg4)
abbrev argB2 (c : Dev nD) : FVec Ideal S32 .f32 := m ((c : Thread nD τ).loc main_arg5)

/-- The four tables the region finds on core `c`, each at its literal type. -/
abbrev tblW1g (c : Dev nD) : FVec Ideal S4x256x32 .f32 := V m c main_v11
abbrev tblW2g (c : Dev nD) : FVec Ideal S4x32x256 .f32 := V m c main_v14
abbrev tblB1g (c : Dev nD) : FVec Ideal S256x1 .f32 := V m c main_v18
abbrev tblB2f (c : Dev nD) : FVec Ideal S32x1 .f32 := V m c main_v10

/-- The argsort of the permutation matrix as the program computes it: the positions carried through the
    stable sort of each row. -/
abbrev invTable (c : Dev nD) : IVec S16x32 32 :=
  (Host.sort2 S16x32 1 comparator_i32_i32_d1 (argPerms m c) (iotaInDim S16x32 32 1)).2

end Cert.KernelIdeal.HostTables

end
-- ==== Proof.LibIndexWords.lean ====
import Idealize.ShloMosaic.PureOps.Vector
import Idealize.ShloMosaic.Lib.StableHlo.Predicate

/-!
# Index words: 32-bit words whose signed value is a small natural number

An index into a table of `N` rows travels as a 32-bit two's-complement word `x`. When its signed value
`x.toInt` is already a row number `k < N`, the arithmetic a program wraps around it does nothing:

* clipping into a range that holds it, `minimum(hi, maximum(lo, x))`, gives `x` back (`clip_of_mem`);
* the wrap of a negative index, `select(x < 0, x + n, x)`, takes the second branch (`wrap_of_nonneg`);
* the clamp of a start index into the table, `min x.toInt.toNat (N - 1)`, is `k` (`clamp_of_eq`,
  `clamp_fin_of_eq`).

Each is stated at one element, for the operations on words (`IntOp.maxsi`, `IntOp.minsi`, `IntOp.cmpi`,
`IntOp.addi`, `Scalar.select`) that the elementwise operations on arrays apply at every index; the
array forms follow by function extensionality (`clip_vec_of_mem`, `wrap_vec_of_nonneg`). The last
section moves between a word and its value: the word of a small natural number has that value, and a
word is determined by its signed value.
-/

namespace Cert.LibIndexWords

open Idealize.ShloMosaic

/-! ## The signed order, read on the signed values -/

/-- `a` is not strictly below `b` in the signed order exactly when `b.toInt ≤ a.toInt`. -/
theorem slt_eq_false_of_le {a b : BitVec 32} (h : b.toInt ≤ a.toInt) : a.slt b = false := by
  simp only [BitVec.slt, decide_eq_false_iff_not, not_lt]
  exact h

/-! ## Clipping -/

/-- Clipping into a range leaves a word of that range alone. With `lo ≤ x ≤ hi` as signed values,
    `maximum(lo, x)` keeps `x` (it would take `lo` only if `x` were strictly below it) and then
    `minimum(hi, x)` keeps `x` (it would take `hi` only if `hi` were strictly below `x`). -/
theorem clip_of_mem (x lo hi : BitVec 32) (hlo : lo.toInt ≤ x.toInt) (hhi : x.toInt ≤ hi.toInt) :
    IntOp.minsi hi (IntOp.maxsi lo x) = x := by
  have hmax : IntOp.maxsi lo x = x := by
    unfold IntOp.maxsi
    rw [slt_eq_false_of_le hlo]
    rfl
  rw [hmax]
  unfold IntOp.minsi
  rw [slt_eq_false_of_le hhi]
  rfl

/-- The same with the range given by a row count: a word whose value is a row number `k < N` is left
    alone by the clip to `[0, N - 1]`, whatever word `hi` carries the value `N - 1`. -/
theorem clip_of_fin {N : Nat} (x hi : BitVec 32) (k : Fin N) (hx : x.toInt = (k.val : ℤ))
    (hhi : hi.toInt = ((N - 1 : ℕ) : ℤ)) : IntOp.minsi hi (IntOp.maxsi 0#32 x) = x := by
  have h0 : (0#32 : BitVec 32).toInt = 0 := by decide
  have hk := k.isLt
  exact clip_of_mem x 0#32 hi (by rw [h0, hx]; omega) (by rw [hx, hhi]; omega)

/-- Clipping a whole array of words, each within the bounds at its own position, gives the array back. -/
theorem clip_vec_of_mem {s : Shape} (x lo hi : IVec s 32)
    (h : ∀ i, (lo i).toInt ≤ (x i).toInt ∧ (x i).toInt ≤ (hi i).toInt) : minsi hi (maxsi lo x) = x :=
  funext fun i => clip_of_mem (x i) (lo i) (hi i) (h i).1 (h i).2

/-! ## Wrapping a negative index -/

/-- The wrap `select(x < 0, x + n, x)` of a word that is not negative is the word: the signed comparison
    with zero answers the bit `0`, and the selection on bit `0` takes its second branch. -/
theorem wrap_of_nonneg (x n : BitVec 32) (hx : 0 ≤ x.toInt) :
    Scalar.select (IntOp.cmpi .slt x 0#32) (IntOp.addi x n) x = x := by
  have h0 : (0#32 : BitVec 32).toInt = 0 := by decide
  have hlt : x.slt 0#32 = false := slt_eq_false_of_le (by rw [h0]; exact hx)
  unfold IntOp.cmpi Scalar.select
  rw [hlt]
  rfl

/-- Wrapping a whole array of words, none of them negative, gives the array back; `zero` is any array
    that holds the word `0` everywhere (a broadcast constant) and `n` any array of offsets. -/
theorem wrap_vec_of_nonneg {s : Shape} (x zero n : IVec s 32) (hz : ∀ i, zero i = 0#32)
    (hx : ∀ i, 0 ≤ (x i).toInt) : select (cmpi .slt x zero) (addi x n) x = x :=
  funext fun i => by
    show Scalar.select (IntOp.cmpi .slt (x i) (zero i)) (IntOp.addi (x i) (n i)) (x i) = x i
    rw [hz i]
    exact wrap_of_nonneg (x i) (n i) (hx i)

/-! ## Clamping a start index into a table -/

/-- A start index whose signed value is a row number `k` of a table of `N` rows is clamped to `k`: read
    as a natural number it is `k`, and `k ≤ N - 1`. -/
theorem clamp_of_eq (x : BitVec 32) (N : Nat) (k : Fin N) (hx : x.toInt = (k.val : ℤ)) :
    min x.toInt.toNat (N - 1) = k.val := by
  have hk := k.isLt
  rw [hx, Int.toNat_natCast]
  exact Nat.min_eq_left (by omega)

/-- The clamped start index, as a row of the table, is `k` (whatever the proof that it is a row). -/
theorem clamp_fin_of_eq (x : BitVec 32) (N : Nat) (k : Fin N) (hx : x.toInt = (k.val : ℤ))
    (h : min x.toInt.toNat (N - 1) < N) : (⟨min x.toInt.toNat (N - 1), h⟩ : Fin N) = k :=
  Fin.ext (clamp_of_eq x N k hx)

/-! ## Between a word and its value -/

/-- The word of a natural number below `2 ^ 31` has that number as its signed value
    (`StableHlo.Predicate.toInt_ofNat_small`). -/
theorem toInt_ofNat_of_lt (n : ℕ) (hn : n < 2 ^ 31) : (BitVec.ofNat 32 n).toInt = (n : ℤ) :=
  StableHlo.Predicate.toInt_ofNat_small n hn

/-- The word of a row number of a table of at most `2 ^ 31` rows has that row number as its signed value. -/
theorem toInt_ofNat_fin {N : Nat} (hN : N ≤ 2 ^ 31) (k : Fin N) : (BitVec.ofNat 32 k.val).toInt = (k.val : ℤ) :=
  toInt_ofNat_of_lt k.val (lt_of_lt_of_le k.isLt hN)

/-- At ten thousand rows. -/
theorem toInt_ofNat_fin10000 (k : Fin 10000) : (BitVec.ofNat 32 k.val).toInt = (k.val : ℤ) :=
  toInt_ofNat_fin (by decide) k

/-- A word is determined by its signed value. -/
theorem eq_of_toInt_eq {x y : BitVec 32} (h : x.toInt = y.toInt) : x = y := BitVec.eq_of_toInt_eq h

/-- A word whose signed value is a natural number below `2 ^ 31` is the word of that number. -/
theorem eq_ofNat_of_toInt_eq {x : BitVec 32} {n : ℕ} (hn : n < 2 ^ 31) (hx : x.toInt = (n : ℤ)) :
    x = BitVec.ofNat 32 n :=
  eq_of_toInt_eq (by rw [hx, toInt_ofNat_of_lt n hn])

/-- A word whose signed value lies in `[0, N)` names a row of a table of `N` rows: its value read as a
    natural number is below `N`, and is the signed value again. -/
theorem toInt_eq_fin_of_mem {x : BitVec 32} {N : Nat} (h0 : 0 ≤ x.toInt) (hN : x.toInt < (N : ℤ)) :
    ∃ k : Fin N, x.toInt = (k.val : ℤ) :=
  ⟨⟨x.toInt.toNat, by omega⟩, by simp only [Int.toNat_of_nonneg h0]⟩

end Cert.LibIndexWords
-- ==== Proof.KerHostW1.lean ====
import proofs.«411942_j19035295055965_2_alg».proof.Proof.KerArgs
import proofs.«411942_j19035295055965_2_alg».proof.Proof.LibIndexWords
import Idealize.ShloMosaic.Lib.ValueIdx
import Idealize.ShloMosaic.Lib.Pipeline.Value
import Idealize.ShloMosaic.Lib.ValueLayout
import Idealize.ShloMosaic.Lib.StableHlo.Run
import Idealize.ShloMosaic.Lib.Affine
import Idealize.ShloMosaic.PureOps.Reduce
import Idealize.ShloMosaic.PureOps.Ideal.Laws

/-!
# The stacked first layer and the repeated first bias, read at an index

Before the region the program sorts each row of the permutation matrix together with the positions
(an argsort), gathers the columns of the first layer through the sorted positions, and re-lays the
result into a `4 × 256 × 32` table; the first bias is repeated four times down a `256 × 1` column.
Both arrays, as the region finds them, are read here at an index in terms of the program's arguments
and of the positions `σ p n` the argsort holds.

The first array is opened as the composition of the operations that build it: the take of the first
layer through the sorted positions (index wrap, in-bounds mask, gather, selection against the fill
value), a transpose of its first two axes and a reshape. The take is read once over a variable table
and a variable position matrix whose words are column numbers below 32: the wrap and the gather's clamp
leave such a word alone, the mask is 1 everywhere, and the selection takes the gathered entry. The
transpose and the reshape are then read by their row-major arithmetic: flat row `256 g + k` is
`64 p + hh` with `p = 4 g + k / 64` and `hh = k % 64`.
-/

noncomputable section

open scoped BigOperators

namespace Cert.KernelIdeal.HostTables

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The take of the first layer through a matrix of positions -/

/-- The index wrap of a take: a negative index has the axis length 32 added. -/
private def KerHostW1_wrap (idx : IVec S16x32 32) : IVec S16x32 32 :=
  select (cmpi .slt idx (broadcastInDim S16x32 ![] Facts₀.bcast_S_S16x32 (constantI S_ 32 0#32)))
    (addi idx (broadcastInDim S16x32 ![] Facts₀.bcast_S_S16x32 (constantI S_ 32 32#32))) idx

/-- The wrapped indices as a column of one-component index vectors. -/
private def KerHostW1_col (idx : IVec S16x32 32) : IVec S16x32x1 32 :=
  broadcastInDim S16x32x1 ![0, 1] Facts₀.bcast_S16x32_S16x32x1_0_1 (KerHostW1_wrap idx)

/-- The in-bounds mask of a take: every component of the index vector lies in `[0, 31]`. -/
private def KerHostW1_mask (idx : IVec S16x32 32) : IVec S16x32 1 :=
  Host.reduce IntOp.andi
    (andi (cmpi .sge (KerHostW1_col idx) (broadcastInDim S16x32x1 ![] Facts₀.bcast_S_S16x32x1 (constantI S_ 32 0#32)))
      (cmpi .sle (KerHostW1_col idx)
        (broadcastInDim S16x32x1 ![0, 1, 2] Facts₀.bcast_S1x1x1_S16x32x1_0_1_2
          (broadcastInDim S1x1x1 ![2] Facts₀.bcast_S1_S1x1x1_2 (constantI S1 32 31#32)))))
    (constantI S_ 1 1#1) Facts₀.reducesTo_S16x32x1_S16x32_d2 Facts₀.h_S_

/-- The take of the columns of a `64 × 32` table through a `16 × 32` matrix of positions: the gathered
    entry where the position is in bounds, the fill value elsewhere. -/
private def KerHostW1_take (W : FVec Ideal S64x32 .f32) (idx : IVec S16x32 32) : FVec Ideal S64x16x32 .f32 :=
  select (broadcastInDim S64x16x32 ![1, 2] Facts₀.bcast_S16x32_S64x16x32_1_2 (KerHostW1_mask idx))
    (Host.gather gather_S64x32_S16x32x1_S64x16x32_0_1_n_n_1_2_641 W (KerHostW1_col idx))
    (broadcastInDim S64x16x32 ![] Facts₀.bcast_S_S64x16x32 (constant S_ .f32 0x7FC00000#32))

open Idealize.ShloMosaic.StableHlo in
/-- The stacked first layer as the composition of the operations that build it. -/
private theorem KerHostW1_w1_open (c : Dev nD) :
    tblW1g m c
      = shapeCast S4x256x32
          (transpose S16x64x32 [1, 0, 2] (KerHostW1_take (argW1 m c) (invTable m c)) Facts₀.transposes_S64x16x32_S16x64x32_1_0_2)
          Facts₀.shapeCasts_S16x64x32_S4x256x32 := by
  dsimp only [tblW1g, Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  simp only [TRef.ofBuf, TRef.toBuf, cast_eq]
  simp only [KerHostW1_take, KerHostW1_mask, KerHostW1_col, KerHostW1_wrap]
  rfl

/-- The gather along axis 1 of a `64 × 32` table by a `16 × 32 × 1` tensor of index vectors, read at
    `(hh, p, n)`: row `hh`, and the column that index vector `(p, n)` names, read signed and clamped
    into `[0, 31]`. -/
private theorem KerHostW1_gather_apply (W : FVec Ideal S64x32 .f32) (col : IVec S16x32x1 32)
    (hh : Fin 64) (p : Fin 16) (n : Fin 32) :
    Host.gather gather_S64x32_S16x32x1_S64x16x32_0_1_n_n_1_2_641 W col (ix3 hh p n)
      = W (ix2 hh (⟨min (col (ix3 p n (0 : Fin 1))).toInt.toNat 31, by omega⟩ : Fin 32)) := by
  unfold Host.gather
  congr 1
  funext a
  refine Fin.ext ?_
  have hob : gather_S64x32_S16x32x1_S64x16x32_0_1_n_n_1_2_641.operandBatchingDims = [] := rfl
  have hcoll : gather_S64x32_S16x32x1_S64x16x32_0_1_n_n_1_2_641.collapsedSliceDims = [1] := rfl
  have hsim : gather_S64x32_S16x32x1_S64x16x32_0_1_n_n_1_2_641.startIndexMap = [1] := rfl
  match a with
  | ⟨0, _⟩ =>
    show gather_S64x32_S16x32x1_S64x16x32_0_1_n_n_1_2_641.start (ix3 hh p n) col 0
        + gather_S64x32_S16x32x1_S64x16x32_0_1_n_n_1_2_641.batchCoord (ix3 hh p n) 0
        + gather_S64x32_S16x32x1_S64x16x32_0_1_n_n_1_2_641.offCoord (ix3 hh p n) 0 = hh.val
    rw [GatherDims.batchCoord_eq_zero _ _ _ (by rw [hob]; exact List.not_mem_nil)]
    have h0 : (0 : Fin S64x32.rank) ∉ gather_S64x32_S16x32x1_S64x16x32_0_1_n_n_1_2_641.startIndexMap := by
      rw [hsim]; decide
    have hk : (0 : Fin S64x32.rank) ∈ gather_S64x32_S16x32x1_S64x16x32_0_1_n_n_1_2_641.sKept := by
      rw [GatherDims.mem_sKept, hcoll, hob]; decide
    unfold GatherDims.start GatherDims.offCoord
    rw [dif_neg h0, dif_pos hk]
    simp only [Nat.zero_add, Nat.add_zero]
    rfl
  | ⟨1, _⟩ =>
    show gather_S64x32_S16x32x1_S64x16x32_0_1_n_n_1_2_641.start (ix3 hh p n) col 1
        + gather_S64x32_S16x32x1_S64x16x32_0_1_n_n_1_2_641.batchCoord (ix3 hh p n) 1
        + gather_S64x32_S16x32x1_S64x16x32_0_1_n_n_1_2_641.offCoord (ix3 hh p n) 1
        = min (col (ix3 p n (0 : Fin 1))).toInt.toNat 31
    rw [GatherDims.batchCoord_eq_zero _ _ _ (by rw [hob]; exact List.not_mem_nil)]
    have h1 : (1 : Fin S64x32.rank) ∈ gather_S64x32_S16x32x1_S64x16x32_0_1_n_n_1_2_641.startIndexMap := by
      rw [hsim]; decide
    have hk : (1 : Fin S64x32.rank) ∉ gather_S64x32_S16x32x1_S64x16x32_0_1_n_n_1_2_641.sKept := by
      rw [GatherDims.mem_sKept, hcoll, hob]; decide
    rw [GatherDims.offCoord_eq_zero _ _ _ hk]
    unfold GatherDims.start
    rw [dif_pos h1]
    simp only [Nat.add_zero]
    have hsi : gather_S64x32_S16x32x1_S64x16x32_0_1_n_n_1_2_641.siIdx (ix3 hh p n)
        ⟨List.idxOf (1 : Fin S64x32.rank) gather_S64x32_S16x32x1_S64x16x32_0_1_n_n_1_2_641.startIndexMap,
          List.idxOf_lt_length_iff.2 h1⟩ = ix3 p n (0 : Fin 1) := by
      funext b; refine Fin.ext ?_
      match b with
      | ⟨0, _⟩ => rfl
      | ⟨1, _⟩ => rfl
      | ⟨2, _⟩ => rfl
    rw [hsi]
    rfl

/-- A left fold by `and` from 1 over words that are all 1 is 1. -/
private theorem KerHostW1_foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact KerHostW1_foldl_andi_one f hf l _ (IntOp.andi_eq_one.2 ⟨h, hf a⟩)

/-- The wrap leaves an array of non-negative words alone. -/
private theorem KerHostW1_wrap_eq (idx : IVec S16x32 32) (h0 : ∀ i, 0 ≤ (idx i).toInt) : KerHostW1_wrap idx = idx := by
  unfold KerHostW1_wrap
  exact Cert.LibIndexWords.wrap_vec_of_nonneg idx _ _ (fun _ => rfl) h0

/-- The column of index vectors read at an index: the wrapped index at its first two coordinates. -/
private theorem KerHostW1_col_apply (idx : IVec S16x32 32) (i : S16x32x1.Idx) :
    KerHostW1_col idx i
      = KerHostW1_wrap idx (ix2 (⟨(i 0).val, (i 0).isLt⟩ : Fin 16) (⟨(i 1).val, (i 1).isLt⟩ : Fin 32)) := by
  unfold KerHostW1_col
  exact broadcastInDim_apply _ Facts₀.bcast_S16x32_S16x32x1_0_1 _ i _ (fun a => match a with
    | ⟨0, _⟩ => by show (i 0).val = if (16 : Nat) = 1 then 0 else (i 0).val; rw [if_neg (by decide)]
    | ⟨1, _⟩ => by show (i 1).val = if (32 : Nat) = 1 then 0 else (i 1).val; rw [if_neg (by decide)])

/-- When every index vector's component lies in `[0, 31]` the in-bounds mask is 1 everywhere. -/
private theorem KerHostW1_mask_eq_one (idx : IVec S16x32 32)
    (hc : ∀ i, 0 ≤ (KerHostW1_col idx i).toInt ∧ (KerHostW1_col idx i).toInt ≤ 31) (j : S16x32.Idx) :
    KerHostW1_mask idx j = 1#1 := by
  unfold KerHostW1_mask
  rw [Host.reduce_eq_foldl]
  refine KerHostW1_foldl_andi_one _ (fun i => ?_) _ _ rfl
  show IntOp.andi (IntOp.cmpi .sge (KerHostW1_col idx i) 0#32) (IntOp.cmpi .sle (KerHostW1_col idx i) 31#32) = 1#1
  rw [IntOp.andi_eq_one, IntOp.cmpi_sge, IntOp.cmpi_sle]
  have e0 : (0#32 : BitVec 32).toInt = 0 := by decide
  have e31 : (31#32 : BitVec 32).toInt = 31 := by decide
  rw [e0, e31]
  exact hc i

/-- THE TAKE READ AT AN INDEX. When the position matrix holds, at `(p, n)`, the word of a column number
    `σ p n < 32`, the take reads at `(hh, p, n)` the table's entry `(hh, σ p n)`: the wrap and the clamp
    leave the word alone, the mask is 1 and the selection takes the gathered entry. -/
private theorem KerHostW1_take_apply (W : FVec Ideal S64x32 .f32) (idx : IVec S16x32 32) (σ : Fin 16 → Fin 32 → Fin 32)
    (hidx : ∀ p n, idx (ix2 p n) = BitVec.ofNat 32 (σ p n).val) (hh : Fin 64) (p : Fin 16) (n : Fin 32) :
    KerHostW1_take W idx (ix3 hh p n) = W (ix2 hh (σ p n)) := by
  have hval : ∀ p n, (idx (ix2 p n)).toInt = ((σ p n).val : ℤ) := fun p n => by
    rw [hidx]; exact Cert.LibIndexWords.toInt_ofNat_fin (by decide) _
  have h0 : ∀ i, 0 ≤ (idx i).toInt := fun i => by
    obtain ⟨p, n, rfl⟩ : ∃ p n, i = ix2 p n := ⟨i 0, i 1, eq_ix2 i⟩
    rw [hval]; exact Int.natCast_nonneg _
  have hwrap : KerHostW1_wrap idx = idx := KerHostW1_wrap_eq idx h0
  have hcolv : ∀ i, (KerHostW1_col idx i).toInt
      = ((σ (⟨(i 0).val, (i 0).isLt⟩ : Fin 16) (⟨(i 1).val, (i 1).isLt⟩ : Fin 32)).val : ℤ) := fun i => by
    rw [KerHostW1_col_apply, hwrap, hval]
  have hmask : ∀ j, KerHostW1_mask idx j = 1#1 := KerHostW1_mask_eq_one idx (fun i => by
    rw [hcolv]
    have := (σ (⟨(i 0).val, (i 0).isLt⟩ : Fin 16) (⟨(i 1).val, (i 1).isLt⟩ : Fin 32)).isLt
    omega)
  unfold KerHostW1_take
  rw [select_apply]
  have hb : broadcastInDim S64x16x32 ![1, 2] Facts₀.bcast_S16x32_S64x16x32_1_2 (KerHostW1_mask idx) (ix3 hh p n)
      = KerHostW1_mask idx (ix2 p n) :=
    broadcastInDim_apply _ Facts₀.bcast_S16x32_S64x16x32_1_2 _ _ _ (fun a => match a with
      | ⟨0, _⟩ => by show p.val = if (16 : Nat) = 1 then 0 else p.val; rw [if_neg (by decide)]
      | ⟨1, _⟩ => by show n.val = if (32 : Nat) = 1 then 0 else n.val; rw [if_neg (by decide)])
  rw [hb, hmask, select_one, KerHostW1_gather_apply]
  have hx : (KerHostW1_col idx (ix3 p n (0 : Fin 1))).toInt = ((σ p n).val : ℤ) := hcolv _
  rw [Cert.LibIndexWords.clamp_fin_of_eq _ 32 (σ p n) hx]

/-- The re-laid take read at an index. -/
private theorem KerHostW1_read (W : FVec Ideal S64x32 .f32) (idx : IVec S16x32 32) (σ : Fin 16 → Fin 32 → Fin 32)
    (hidx : ∀ p n, idx (ix2 p n) = BitVec.ofNat 32 (σ p n).val) (g : Fin 4) (k : Fin 256) (n' : Fin 32) :
    shapeCast S4x256x32
        (transpose S16x64x32 [1, 0, 2] (KerHostW1_take W idx) Facts₀.transposes_S64x16x32_S16x64x32_1_0_2)
        Facts₀.shapeCasts_S16x64x32_S4x256x32 (ix3 g k n')
      = W (ix2 (⟨k.val % 64, by omega⟩ : Fin 64) (σ (⟨4 * g.val + k.val / 64, by omega⟩ : Fin 16) n')) := by
  have hg := g.isLt
  have hk := k.isLt
  refine (shapeCast_apply _ Facts₀.shapeCasts_S16x64x32_S4x256x32 (ix3 g k n')
    (ix3 (⟨4 * g.val + k.val / 64, by omega⟩ : Fin 16) (⟨k.val % 64, by omega⟩ : Fin 64) n') ?_).trans ?_
  · rw [Shape.rowMajor_val_three, Shape.rowMajor_val_three]
    show ((4 * g.val + k.val / 64) * 64 + k.val % 64) * 32 + n'.val = (g.val * 256 + k.val) * 32 + n'.val
    omega
  refine (transpose_apply [1, 0, 2] _ Facts₀.transposes_S64x16x32_S16x64x32_1_0_2 _
    (ix3 (⟨k.val % 64, by omega⟩ : Fin 64) (⟨4 * g.val + k.val / 64, by omega⟩ : Fin 16) n') (fun b => match b with
      | ⟨0, _⟩ => rfl
      | ⟨1, _⟩ => rfl
      | ⟨2, _⟩ => rfl)).trans ?_
  exact KerHostW1_take_apply W idx σ hidx _ _ _

/-- The stacked first layer: row `k` of group `g` is hidden unit `k % 64` of the first layer with its
    columns read through the sorted positions of permutation `4 g + k / 64`. -/
theorem w1g_apply (c : Dev nD) (σ : Fin 16 → Fin 32 → Fin 32)
    (hσ : ∀ p n, invTable m c (ix2 p n) = BitVec.ofNat 32 (σ p n).val) (g : Fin 4) (k : Fin 256) (n' : Fin 32) :
    tblW1g m c (ix3 g k n')
      = argW1 m c
          (ix2 (⟨k.val % 64, by omega⟩ : Fin 64) (σ (⟨4 * g.val + k.val / 64, by omega⟩ : Fin 16) n')) := by
  rw [KerHostW1_w1_open]
  exact KerHostW1_read (argW1 m c) (invTable m c) σ hσ g k n'

/-! ## The repeated first bias -/

open Idealize.ShloMosaic.StableHlo in
/-- The repeated first bias as the composition of the operations that build it. -/
private theorem KerHostW1_b1_open (c : Dev nD) :
    tblB1g m c
      = shapeCast S256x1 (shapeCast S256 (broadcastInDim S4x64 ![0, 1] Facts₀.bcast_S1x64_S4x64_0_1
          (shapeCast S1x64 (argB1 m c) Facts₀.shapeCasts_S64_S1x64)) Facts₀.shapeCasts_S4x64_S256) Facts₀.shapeCasts_S256_S256x1 := by
  dsimp only [tblB1g, Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

/-- The first bias repeated four times down a column. -/
theorem b1g_apply (c : Dev nD) (k : Fin 256) :
    tblB1g m c (ix2 k 0)
      = argB1 m c (ix1 (⟨k.val % 64, by omega⟩ : Fin 64)) := by
  rw [KerHostW1_b1_open]
  generalize argB1 m c = b
  have hk := k.isLt
  refine (shapeCast_apply _ Facts₀.shapeCasts_S256_S256x1 (ix2 k 0) (ix1 k) ?_).trans ?_
  · rw [Shape.rowMajor_val_one, Shape.rowMajor_val_two]
    show k.val = k.val * 1 + 0
    omega
  refine (shapeCast_apply _ Facts₀.shapeCasts_S4x64_S256 (ix1 k)
    (ix2 (⟨k.val / 64, by omega⟩ : Fin 4) (⟨k.val % 64, by omega⟩ : Fin 64)) ?_).trans ?_
  · rw [Shape.rowMajor_val_one, Shape.rowMajor_val_two]
    show k.val / 64 * 64 + k.val % 64 = k.val
    omega
  refine (broadcastInDim_apply _ Facts₀.bcast_S1x64_S4x64_0_1 _ _
    (ix2 (0 : Fin 1) (⟨k.val % 64, by omega⟩ : Fin 64)) (fun a => match a with
      | ⟨0, _⟩ => by show 0 = if (1 : Nat) = 1 then 0 else _; rw [if_pos rfl]
      | ⟨1, _⟩ => by show k.val % 64 = if (64 : Nat) = 1 then 0 else k.val % 64; rw [if_neg (by decide)])).trans ?_
  refine shapeCast_apply b Facts₀.shapeCasts_S64_S1x64 _ (ix1 (⟨k.val % 64, by omega⟩ : Fin 64)) ?_
  rw [Shape.rowMajor_val_one, Shape.rowMajor_val_two]
  show k.val % 64 = 0 * 64 + k.val % 64
  omega

end Cert.KernelIdeal.HostTables

end
-- ==== Proof.KerHostW2.lean ====
import proofs.«411942_j19035295055965_2_alg».proof.Proof.KerArgs
import proofs.«411942_j19035295055965_2_alg».proof.Proof.LibIndexWords
import Idealize.ShloMosaic.Lib.ValueIdx
import Idealize.ShloMosaic.Lib.Pipeline.Value
import Idealize.ShloMosaic.Lib.ValueLayout
import Idealize.ShloMosaic.Lib.StableHlo.Run
import Idealize.ShloMosaic.Lib.Affine
import Idealize.ShloMosaic.PureOps.Reduce
import Idealize.ShloMosaic.PureOps.Ideal.Laws

/-!
# The stacked, pre-scaled second layer and the folded second bias, read at an index

Before the region the program sorts each row of the permutation matrix together with the positions
(an argsort), gathers the rows of the second layer and the entries of the second bias through the
sorted positions, scales the gathered second layer by the float 0.0625 and re-lays it into a
`4 × 32 × 256` table, and averages the gathered bias over the sixteen permutations into a `32 × 1`
column. Both arrays, as the region finds them, are read here at an index in terms of the program's
arguments and of the positions `σ p n` the argsort holds.
-/

noncomputable section

open scoped BigOperators

namespace Cert.KernelIdeal.HostTables

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The start indices and the in-bounds mask

Each gather reads its table through the same column of start indices: the sorted positions, with 32
added where a position is negative, laid along a new last axis of size one. Beside it the program
computes a mask, "the start index lies in `[0, 31]`", and keeps the gathered value where the mask is
set. When every sorted position is the word of a row number below 32 the column holds those words
unchanged and the mask is set everywhere. -/

/-- The column of start indices: the positions, wrapped where negative, on a new unit axis. -/
def KerHostW2_wrapCol (idx : IVec S16x32 32) : IVec S16x32x1 32 :=
  broadcastInDim S16x32x1 ![0, 1] bcast_S16x32_S16x32x1_0_1
    (select (cmpi .slt idx (broadcastInDim S16x32 ![] bcast_S_S16x32 (constantI S_ 32 0#32)))
      (addi idx (broadcastInDim S16x32 ![] bcast_S_S16x32 (constantI S_ 32 32#32))) idx)

/-- The mask: "the start index is at least 0 and at most 31", reduced by `and` over the unit axis. -/
def KerHostW2_inMask (w : IVec S16x32x1 32) : IVec S16x32 1 :=
  Host.reduce IntOp.andi
    (andi (cmpi .sge w (broadcastInDim S16x32x1 ![] bcast_S_S16x32x1 (constantI S_ 32 0#32)))
      (cmpi .sle w (broadcastInDim S16x32x1 ![0, 1, 2] bcast_S1x1x1_S16x32x1_0_1_2
        (broadcastInDim S1x1x1 ![2] bcast_S1_S1x1x1_2 (constantI S1 32 31#32)))))
    (constantI S_ 1 1#1) reducesTo_S16x32x1_S16x32_d2 h_S_

/-- The signed value of the word of a row number below 32 is that number. -/
theorem KerHostW2_toInt_pos (k : Fin 32) : (BitVec.ofNat 32 k.val).toInt = (k.val : ℤ) :=
  Cert.LibIndexWords.toInt_ofNat_fin (by decide) k

/-- The column at `(p, n, 0)` is the word of the sorted position `σ p n`: the position is not negative,
    so the wrap leaves it alone. -/
theorem KerHostW2_wrapCol_apply (idx : IVec S16x32 32) (σ : Fin 16 → Fin 32 → Fin 32)
    (hidx : ∀ p n, idx (ix2 p n) = BitVec.ofNat 32 (σ p n).val) (p : Fin 16) (n : Fin 32) (z : Fin 1) :
    KerHostW2_wrapCol idx (ix3 p n z) = BitVec.ofNat 32 (σ p n).val := by
  unfold KerHostW2_wrapCol
  rw [broadcastInDim_apply _ bcast_S16x32_S16x32x1_0_1 _ (ix3 p n z) (ix2 p n) (fun a => match a with
    | ⟨0, _⟩ => by show p.val = if (16 : Nat) = 1 then 0 else p.val; rw [if_neg (by decide)]
    | ⟨1, _⟩ => by show n.val = if (32 : Nat) = 1 then 0 else n.val; rw [if_neg (by decide)])]
  show Scalar.select (IntOp.cmpi .slt (idx (ix2 p n)) 0#32) (IntOp.addi (idx (ix2 p n)) 32#32) (idx (ix2 p n)) = _
  rw [Cert.LibIndexWords.wrap_of_nonneg _ _ (by rw [hidx, KerHostW2_toInt_pos]; exact Int.natCast_nonneg _), hidx]

/-- A left fold by `and` from the bit 1 over bits that are all 1 is 1. -/
theorem KerHostW2_foldl_andi_one {ι : Type} (f : ι → BitVec 1) :
    ∀ (l : List ι), (∀ a ∈ l, f a = 1#1) → l.foldl (fun r a => IntOp.andi r (f a)) 1#1 = 1#1
  | [], _ => rfl
  | a :: l, h => by
    rw [List.foldl_cons, h a List.mem_cons_self]
    exact KerHostW2_foldl_andi_one f l fun b hb => h b (List.mem_cons_of_mem _ hb)

/-- Over a column whose every word has a signed value in `[0, 31]` the mask is set everywhere. -/
theorem KerHostW2_inMask_apply (w : IVec S16x32x1 32) (hw : ∀ i, 0 ≤ (w i).toInt ∧ (w i).toInt ≤ 31)
    (j : S16x32.Idx) : KerHostW2_inMask w j = 1#1 := by
  unfold KerHostW2_inMask
  rw [Host.reduce_eq_foldl]
  refine KerHostW2_foldl_andi_one _ _ fun i _ => ?_
  show IntOp.andi (IntOp.cmpi .sge (w i) 0#32) (IntOp.cmpi .sle (w i) 31#32) = 1#1
  rw [IntOp.andi_eq_one, IntOp.cmpi_sge, IntOp.cmpi_sle]
  have h0 : (0#32 : BitVec 32).toInt = 0 := by decide
  have h31 : (31#32 : BitVec 32).toInt = 31 := by decide
  rw [h0, h31]
  exact hw i

/-- So it is over the column of the sorted positions. -/
theorem KerHostW2_inMask_wrapCol (idx : IVec S16x32 32) (σ : Fin 16 → Fin 32 → Fin 32)
    (hidx : ∀ p n, idx (ix2 p n) = BitVec.ofNat 32 (σ p n).val) (j : S16x32.Idx) :
    KerHostW2_inMask (KerHostW2_wrapCol idx) j = 1#1 :=
  KerHostW2_inMask_apply _ (fun i => by
    obtain ⟨p, n, z, rfl⟩ : ∃ p n z, i = ix3 p n z := ⟨i 0, i 1, i 2, eq_ix3 i⟩
    rw [KerHostW2_wrapCol_apply idx σ hidx p n z, KerHostW2_toInt_pos]
    have := (σ p n).isLt
    omega) j

/-! ## The two gathers read at an index

A start index that is the word of a row number `k` below 32 reads signed as `k`, and the clamp into
`[0, 31]` leaves it alone: the gather reads row `k` of its table. -/

/-- The clamped start index of the word of a row number below 32 is that row. -/
theorem KerHostW2_clamp (x : BitVec 32) (k : Fin 32) (hx : x = BitVec.ofNat 32 k.val) :
    min x.toInt.toNat (32 - 1) = k.val :=
  Cert.LibIndexWords.clamp_of_eq x 32 k (by rw [hx]; exact KerHostW2_toInt_pos k)

/-- The gather of the second bias (a flat table, the whole index tensor a batch) at `(p, n)` reads the
    bias at the sorted position `σ p n`. -/
theorem KerHostW2_gather_b2 (x : FVec Ideal S32 .f32) (w : IVec S16x32x1 32) (σ : Fin 16 → Fin 32 → Fin 32)
    (hw : ∀ p n z, w (ix3 p n z) = BitVec.ofNat 32 (σ p n).val) (p : Fin 16) (n : Fin 32) :
    Host.gather gather_S32_S16x32x1_S16x32_n_0_n_n_0_2_1 x w (ix2 p n) = x (ix1 (σ p n)) := by
  have h := gather_take_apply (N := 32) (R := 16) (C := 32) (by decide) gather_S32_S16x32x1_S16x32_n_0_n_n_0_2_1_wf
    x w (ix2 p n)
  have e : takeIdx (ix2 p n) = ix3 p n 0 := funext fun b => match b with
    | ⟨0, _⟩ => rfl
    | ⟨1, _⟩ => rfl
    | ⟨2, _⟩ => rfl
  refine (show Host.gather gather_S32_S16x32x1_S16x32_n_0_n_n_0_2_1 x w (ix2 p n)
      = Host.gather (takeDims 32 16 32 gather_S32_S16x32x1_S16x32_n_0_n_n_0_2_1_wf) x w (ix2 p n) from rfl).trans (h.trans ?_)
  exact congrArg x (congrArg ix1 (Fin.ext (KerHostW2_clamp _ (σ p n) ((congrArg w e).trans (hw p n 0)))))

/-- The gather of the second layer (rows by the start index, the 64 hidden units an offset axis) at
    `(p, n, h)` reads row `σ p n`, column `h`. -/
theorem KerHostW2_gather_w2 (x : FVec Ideal S32x64 .f32) (w : IVec S16x32x1 32) (σ : Fin 16 → Fin 32 → Fin 32)
    (hw : ∀ p n z, w (ix3 p n z) = BitVec.ofNat 32 (σ p n).val) (p : Fin 16) (n : Fin 32) (h : Fin 64) :
    Host.gather gather_S32x64_S16x32x1_S16x32x64_2_0_n_n_0_2_164 x w (ix3 p n h) = x (ix2 (σ p n) h) := by
  -- the row axis: collapsed (no offset coordinate), not batching, and start-indexed
  have h0 : gather_S32x64_S16x32x1_S16x32x64_2_0_n_n_0_2_164.start (ix3 p n h) w 0
      + gather_S32x64_S16x32x1_S16x32x64_2_0_n_n_0_2_164.batchCoord (ix3 p n h) 0
      + gather_S32x64_S16x32x1_S16x32x64_2_0_n_n_0_2_164.offCoord (ix3 p n h) 0 = (σ p n).val := by
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ gather_S32x64_S16x32x1_S16x32x64_2_0_n_n_0_2_164.startIndexMap from
      List.mem_singleton.mpr rfl)]
    have hsi : gather_S32x64_S16x32x1_S16x32x64_2_0_n_n_0_2_164.siIdx (ix3 p n h)
        ⟨List.idxOf (0 : Fin 2) gather_S32x64_S16x32x1_S16x32x64_2_0_n_n_0_2_164.startIndexMap,
          List.idxOf_lt_length_iff.2 (List.mem_singleton.mpr rfl)⟩ = ix3 p n 0 := by
      funext b; refine Fin.ext ?_
      match b with
      | ⟨0, _⟩ => rfl
      | ⟨1, _⟩ => rfl
      | ⟨2, _⟩ => rfl
    rw [hsi]
    exact KerHostW2_clamp _ (σ p n) (hw p n 0)
  -- the hidden-unit axis: kept, its coordinate the result's offset coordinate; not start-indexed, not batching
  have h1 : gather_S32x64_S16x32x1_S16x32x64_2_0_n_n_0_2_164.start (ix3 p n h) w 1
      + gather_S32x64_S16x32x1_S16x32x64_2_0_n_n_0_2_164.batchCoord (ix3 p n h) 1
      + gather_S32x64_S16x32x1_S16x32x64_2_0_n_n_0_2_164.offCoord (ix3 p n h) 1 = h.val := by
    rw [GatherDims.batchCoord_eq_zero _ _ _ List.not_mem_nil]
    unfold GatherDims.start
    rw [dif_neg (show ¬ (1 : Fin 2) ∈ gather_S32x64_S16x32x1_S16x32x64_2_0_n_n_0_2_164.startIndexMap by
      rw [show gather_S32x64_S16x32x1_S16x32x64_2_0_n_n_0_2_164.startIndexMap = [0] from rfl]; decide)]
    unfold GatherDims.offCoord
    rw [dif_pos (show (1 : Fin 2) ∈ gather_S32x64_S16x32x1_S16x32x64_2_0_n_n_0_2_164.sKept from
      (GatherDims.mem_sKept _ _).mpr ⟨by
        rw [show gather_S32x64_S16x32x1_S16x32x64_2_0_n_n_0_2_164.collapsedSliceDims = [0] from rfl]; decide,
        List.not_mem_nil⟩)]
    rw [Nat.zero_add]
    rfl
  unfold Host.gather
  refine congrArg x (funext fun a => Fin.ext ?_)
  match a with
  | ⟨0, _⟩ => exact h0
  | ⟨1, _⟩ => exact h1

/-! ## The two arrays as terms of the arguments

The gathered second layer and the gathered second bias (each the gather where the mask is set, a NaN
elsewhere), then the stacked layer and the folded bias the region finds, as functions of a table and
of the matrix of sorted positions. -/

/-- The second layer gathered through the positions: `16 × 32 × 64`. -/
def KerHostW2_takeW2 (x : FVec Ideal S32x64 .f32) (idx : IVec S16x32 32) : FVec Ideal S16x32x64 .f32 :=
  select (broadcastInDim S16x32x64 ![0, 1] bcast_S16x32_S16x32x64_0_1 (KerHostW2_inMask (KerHostW2_wrapCol idx)))
    (Host.gather gather_S32x64_S16x32x1_S16x32x64_2_0_n_n_0_2_164 x (KerHostW2_wrapCol idx))
    (broadcastInDim S16x32x64 ![] bcast_S_S16x32x64 (constant S_ .f32 0x7FC00000#32))

/-- The second bias gathered through the positions: `16 × 32`. -/
def KerHostW2_takeB2 (x : FVec Ideal S32 .f32) (idx : IVec S16x32 32) : FVec Ideal S16x32 .f32 :=
  select (KerHostW2_inMask (KerHostW2_wrapCol idx))
    (Host.gather gather_S32_S16x32x1_S16x32_n_0_n_n_0_2_1 x (KerHostW2_wrapCol idx))
    (broadcastInDim S16x32 ![] bcast_S_S16x32 (constant S_ .f32 0x7FC00000#32))

/-- The stacked second layer: the gathered layer times the constant, regrouped `16 = 4 × 4`, the inner
    group moved next to the hidden units, and the two merged into 256 columns. -/
def KerHostW2_w2gTerm (x : FVec Ideal S32x64 .f32) (idx : IVec S16x32 32) : FVec Ideal S4x32x256 .f32 :=
  shapeCast S4x32x256
    (transpose S4x32x4x64 [0, 2, 1, 3]
      (shapeCast S4x4x32x64
        (mulf (KerHostW2_takeW2 x idx) (broadcastInDim S16x32x64 ![] bcast_S_S16x32x64 (constant S_ .f32 0x3D800000#32)))
        shapeCasts_S16x32x64_S4x4x32x64)
      transposes_S4x4x32x64_S4x32x4x64_0_2_1_3)
    shapeCasts_S4x32x4x64_S4x32x256

/-- The folded bias: the gathered bias summed over the permutations from zero, divided by the constant,
    as a column. -/
def KerHostW2_b2fTerm (x : FVec Ideal S32 .f32) (idx : IVec S16x32 32) : FVec Ideal S32x1 .f32 :=
  shapeCast S32x1
    (Host.divf
      (Host.reduceAdd (KerHostW2_takeB2 x idx) (constant S_ .f32 0x00000000#32) reducesTo_S16x32_S32_d0 h_S_)
      (broadcastInDim S32 ![] bcast_S_S32 (constant S_ .f32 0x41800000#32)))
    shapeCasts_S32_S32x1

open Idealize.ShloMosaic.StableHlo in
/-- The folded bias the region finds is that term of the second bias and the argsort's positions. -/
theorem KerHostW2_tblB2f_eq (c : Dev nD) : tblB2f m c = KerHostW2_b2fTerm (argB2 m c) (invTable m c) := by
  dsimp only [tblB2f, Gen.V]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  simp only [TRef.ofBuf, TRef.toBuf, cast_eq]
  rfl

open Idealize.ShloMosaic.StableHlo in
/-- The stacked layer the region finds is that term of the second layer and the argsort's positions. -/
theorem KerHostW2_tblW2g_eq (c : Dev nD) : tblW2g m c = KerHostW2_w2gTerm (argW2 m c) (invTable m c) := by
  dsimp only [tblW2g, Gen.V]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  simp only [TRef.ofBuf, TRef.toBuf, cast_eq]
  rfl

/-! ## The gathered tables, then the two arrays, read at an index -/

/-- The gathered second bias at `(p, n)` is the bias at the sorted position: the mask is set, so the
    select keeps the gather. -/
theorem KerHostW2_takeB2_apply (x : FVec Ideal S32 .f32) (idx : IVec S16x32 32) (σ : Fin 16 → Fin 32 → Fin 32)
    (hidx : ∀ p n, idx (ix2 p n) = BitVec.ofNat 32 (σ p n).val) (p : Fin 16) (n : Fin 32) :
    KerHostW2_takeB2 x idx (ix2 p n) = x (ix1 (σ p n)) := by
  unfold KerHostW2_takeB2
  rw [select_apply, KerHostW2_inMask_wrapCol idx σ hidx, select_one]
  exact KerHostW2_gather_b2 x _ σ (KerHostW2_wrapCol_apply idx σ hidx) p n

/-- The gathered second layer at `(p, n, h)` is the layer's row at the sorted position, column `h`. -/
theorem KerHostW2_takeW2_apply (x : FVec Ideal S32x64 .f32) (idx : IVec S16x32 32) (σ : Fin 16 → Fin 32 → Fin 32)
    (hidx : ∀ p n, idx (ix2 p n) = BitVec.ofNat 32 (σ p n).val) (p : Fin 16) (n : Fin 32) (h : Fin 64) :
    KerHostW2_takeW2 x idx (ix3 p n h) = x (ix2 (σ p n) h) := by
  unfold KerHostW2_takeW2
  rw [select_apply, broadcastInDim_apply _ bcast_S16x32_S16x32x64_0_1 _ (ix3 p n h) (ix2 p n) (fun a => match a with
    | ⟨0, _⟩ => by show p.val = if (16 : Nat) = 1 then 0 else p.val; rw [if_neg (by decide)]
    | ⟨1, _⟩ => by show n.val = if (32 : Nat) = 1 then 0 else n.val; rw [if_neg (by decide)]),
    KerHostW2_inMask_wrapCol idx σ hidx, select_one]
  exact KerHostW2_gather_w2 x _ σ (KerHostW2_wrapCol_apply idx σ hidx) p n h

/-- The folded bias at `(n, 0)`: the column's row `n` is entry `n` of the quotient; the quotient's
    numerator is the sum from zero over the permutation axis of the gathered bias. -/
theorem KerHostW2_b2fTerm_apply (x : FVec Ideal S32 .f32) (idx : IVec S16x32 32) (σ : Fin 16 → Fin 32 → Fin 32)
    (hidx : ∀ p n, idx (ix2 p n) = BitVec.ofNat 32 (σ p n).val) (n : Fin 32) :
    KerHostW2_b2fTerm x idx (ix2 n 0)
      = Ideal.div (0 + ∑ p : Fin 16, x (ix1 (σ p n))) (Ideal.ofBits .f32 0x41800000#32) := by
  unfold KerHostW2_b2fTerm
  rw [shapeCast_apply _ shapeCasts_S32_S32x1 (ix2 n 0) (ix1 n) (by
    rewrite [Shape.rowMajor_val_one, Shape.rowMajor_val_two]
    show n.val = n.val * 1 + 0
    omega)]
  show Ideal.div (Host.reduceAdd (KerHostW2_takeB2 x idx) (constant S_ .f32 0x00000000#32) reducesTo_S16x32_S32_d0 h_S_ (ix1 n))
      (Ideal.ofBits .f32 0x41800000#32) = _
  congr 1
  simp only [Host.reduceAdd, Ideal.hostReduceAdd_def]
  have hR : S16x32.Reduces [0] S32 := by decide
  rw [Ideal.hostReduceAdd_single reducesTo_S16x32_S32_d0 hR]
  have e0 : (constant (F := Ideal) S_ .f32 0x00000000#32) (Shape.Idx.first h_S_) = 0 := Ideal.ofBits_zero_f32
  rw [e0]
  refine congrArg (0 + ·) (Finset.sum_congr rfl fun p _ => ?_)
  have ep : hR.lift (ix1 n) p = ix2 p n := funext fun a => Fin.ext (by
    match a with
    | ⟨0, _⟩ => rfl
    | ⟨1, _⟩ => rfl)
  rw [ep]
  exact KerHostW2_takeB2_apply x idx σ hidx p n

/-- The stacked layer at `(g, n, k)`, `k = 64 j + h`: the merge of the last two axes reads `(g, n, j, h)`,
    the transpose `(g, j, n, h)`, the regrouping `(4 g + j, n, h)` of the scaled gathered layer. -/
theorem KerHostW2_w2gTerm_apply (x : FVec Ideal S32x64 .f32) (idx : IVec S16x32 32) (σ : Fin 16 → Fin 32 → Fin 32)
    (hidx : ∀ p n, idx (ix2 p n) = BitVec.ofNat 32 (σ p n).val) (g : Fin 4) (n : Fin 32) (k : Fin 256) :
    KerHostW2_w2gTerm x idx (ix3 g n k)
      = x (ix2 (σ (⟨4 * g.val + k.val / 64, by omega⟩ : Fin 16) n) (⟨k.val % 64, by omega⟩ : Fin 64))
        * Ideal.ofBits .f32 0x3D800000#32 := by
  have hg := g.isLt
  have hn := n.isLt
  have hk := k.isLt
  have hj : k.val / 64 < 4 := by omega
  have hh : k.val % 64 < 64 := by omega
  have hp : 4 * g.val + k.val / 64 < 16 := by omega
  unfold KerHostW2_w2gTerm
  rw [shapeCast_apply _ shapeCasts_S4x32x4x64_S4x32x256 (ix3 g n k)
    (ix4 g n (⟨k.val / 64, hj⟩ : Fin 4) (⟨k.val % 64, hh⟩ : Fin 64)) (by
      rewrite [Shape.rowMajor_val_four, Shape.rowMajor_val_three]
      show ((g.val * 32 + n.val) * 4 + k.val / 64) * 64 + k.val % 64 = (g.val * 32 + n.val) * 256 + k.val
      omega)]
  rw [transpose_apply [0, 2, 1, 3] _ transposes_S4x4x32x64_S4x32x4x64_0_2_1_3
    (ix4 g n (⟨k.val / 64, hj⟩ : Fin 4) (⟨k.val % 64, hh⟩ : Fin 64))
    (ix4 g (⟨k.val / 64, hj⟩ : Fin 4) n (⟨k.val % 64, hh⟩ : Fin 64)) (fun b => match b with
      | ⟨0, _⟩ => rfl
      | ⟨1, _⟩ => rfl
      | ⟨2, _⟩ => rfl
      | ⟨3, _⟩ => rfl)]
  rw [shapeCast_apply _ shapeCasts_S16x32x64_S4x4x32x64
    (ix4 g (⟨k.val / 64, hj⟩ : Fin 4) n (⟨k.val % 64, hh⟩ : Fin 64))
    (ix3 (⟨4 * g.val + k.val / 64, hp⟩ : Fin 16) n (⟨k.val % 64, hh⟩ : Fin 64)) (by
      rewrite [Shape.rowMajor_val_three, Shape.rowMajor_val_four]
      show ((4 * g.val + k.val / 64) * 32 + n.val) * 64 + k.val % 64
        = ((g.val * 4 + k.val / 64) * 32 + n.val) * 64 + k.val % 64
      omega)]
  rw [mulf_apply, KerHostW2_takeW2_apply x idx σ hidx]
  rfl

/-! ## The statements -/

/-- The stacked second layer: column `k` of group `g`, row `n`, is the second layer's row at the sorted
    position of `n` under permutation `4 g + k / 64`, hidden unit `k % 64`, times the float 0.0625. -/
theorem w2g_apply (c : Dev nD) (σ : Fin 16 → Fin 32 → Fin 32)
    (hσ : ∀ p n, invTable m c (ix2 p n) = BitVec.ofNat 32 (σ p n).val) (g : Fin 4) (n : Fin 32) (k : Fin 256) :
    tblW2g m c (ix3 g n k)
      = argW2 m c
          (ix2 (σ (⟨4 * g.val + k.val / 64, by omega⟩ : Fin 16) n) (⟨k.val % 64, by omega⟩ : Fin 64))
        * Ideal.ofBits .f32 0x3D800000#32 :=
  (congrFun (KerHostW2_tblW2g_eq m c) (ix3 g n k)).trans
    (KerHostW2_w2gTerm_apply (argW2 m c) (invTable m c) σ hσ g n k)

/-- The folded bias: the second bias at the sorted position of `n`, summed from zero over the sixteen
    permutations and divided by the float 16. -/
theorem b2f_apply (c : Dev nD) (σ : Fin 16 → Fin 32 → Fin 32)
    (hσ : ∀ p n, invTable m c (ix2 p n) = BitVec.ofNat 32 (σ p n).val) (n : Fin 32) :
    tblB2f m c (ix2 n 0)
      = Ideal.div (0 + ∑ p : Fin 16, argB2 m c (ix1 (σ p n)))
          (Ideal.ofBits .f32 0x41800000#32) :=
  (congrFun (KerHostW2_tblB2f_eq m c) (ix2 n 0)).trans
    (KerHostW2_b2fTerm_apply (argB2 m c) (invTable m c) σ hσ n)

end Cert.KernelIdeal.HostTables

end
-- ==== Proof.KerPayload.lean ====
import proofs.«411942_j19035295055965_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The body's arithmetic at one element, on the extended reals

The three pure values of the kernel body, read at an index: the accumulator starts at zero; one trip
of the loop adds, to the accumulator at row `n`, column `l`, the trip's second-layer row `n` applied
to the rectified first layer of column `l` (two matrix products into zero accumulators, a bias column
broadcast along the lanes, a maximum with zero; the changes of float format are the identity); after
the loop the folded bias column is added.
-/

noncomputable section

open scoped BigOperators

namespace Cert.KernelIdeal.Payload

open Cert.KernelIdeal Cert.KernelIdeal.Gen Idealize.ShloMosaic Idealize.ShloMosaic.ValueIdx

/-! ## A column broadcast along the lanes -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products' operand indices, axis by axis -/

theorem lhs_mm1_0 (i : S256x4096.Idx) (q : dot_S256x32_S32x4096_S256x4096_1_0_0_1_n_n.contr.Idx) :
    (dot_S256x32_S32x4096_S256x4096_1_0_0_1_n_n.lhsIdx i q 0).val = (i 0).val := by
  unfold DotDims.lhsIdx
  rw [dif_neg (show ¬(0 : Fin S256x32.rank) ∈ dot_S256x32_S32x4096_S256x4096_1_0_0_1_n_n.lhsBatch by decide), dif_pos (show (0 : Fin S256x32.rank) ∈ dot_S256x32_S32x4096_S256x4096_1_0_0_1_n_n.lhsNonContracting by decide)]
  rfl
theorem lhs_mm1_1 (i : S256x4096.Idx) (q : dot_S256x32_S32x4096_S256x4096_1_0_0_1_n_n.contr.Idx) :
    (dot_S256x32_S32x4096_S256x4096_1_0_0_1_n_n.lhsIdx i q 1).val = (q ⟨0, by decide⟩).val :=
  dot_S256x32_S32x4096_S256x4096_1_0_0_1_n_n.lhsIdx_val_of_single rfl i q
theorem rhs_mm1_0 (i : S256x4096.Idx) (q : dot_S256x32_S32x4096_S256x4096_1_0_0_1_n_n.contr.Idx) :
    (dot_S256x32_S32x4096_S256x4096_1_0_0_1_n_n.rhsIdx i q 0).val = (q ⟨0, by decide⟩).val :=
  dot_S256x32_S32x4096_S256x4096_1_0_0_1_n_n.rhsIdx_val_of_single rfl i q
theorem rhs_mm1_1 (i : S256x4096.Idx) (q : dot_S256x32_S32x4096_S256x4096_1_0_0_1_n_n.contr.Idx) :
    (dot_S256x32_S32x4096_S256x4096_1_0_0_1_n_n.rhsIdx i q 1).val = (i 1).val := by
  unfold DotDims.rhsIdx
  rw [dif_neg (show ¬(1 : Fin S32x4096.rank) ∈ dot_S256x32_S32x4096_S256x4096_1_0_0_1_n_n.rhsBatch by decide), dif_pos (show (1 : Fin S32x4096.rank) ∈ dot_S256x32_S32x4096_S256x4096_1_0_0_1_n_n.rhsNonContracting by decide)]
  rfl

theorem lhs_mm2_0 (i : S32x4096.Idx) (q : dot_S32x256_S256x4096_S32x4096_1_0_0_1_n_n.contr.Idx) :
    (dot_S32x256_S256x4096_S32x4096_1_0_0_1_n_n.lhsIdx i q 0).val = (i 0).val := by
  unfold DotDims.lhsIdx
  rw [dif_neg (show ¬(0 : Fin S32x256.rank) ∈ dot_S32x256_S256x4096_S32x4096_1_0_0_1_n_n.lhsBatch by decide), dif_pos (show (0 : Fin S32x256.rank) ∈ dot_S32x256_S256x4096_S32x4096_1_0_0_1_n_n.lhsNonContracting by decide)]
  rfl
theorem lhs_mm2_1 (i : S32x4096.Idx) (q : dot_S32x256_S256x4096_S32x4096_1_0_0_1_n_n.contr.Idx) :
    (dot_S32x256_S256x4096_S32x4096_1_0_0_1_n_n.lhsIdx i q 1).val = (q ⟨0, by decide⟩).val :=
  dot_S32x256_S256x4096_S32x4096_1_0_0_1_n_n.lhsIdx_val_of_single rfl i q
theorem rhs_mm2_0 (i : S32x4096.Idx) (q : dot_S32x256_S256x4096_S32x4096_1_0_0_1_n_n.contr.Idx) :
    (dot_S32x256_S256x4096_S32x4096_1_0_0_1_n_n.rhsIdx i q 0).val = (q ⟨0, by decide⟩).val :=
  dot_S32x256_S256x4096_S32x4096_1_0_0_1_n_n.rhsIdx_val_of_single rfl i q
theorem rhs_mm2_1 (i : S32x4096.Idx) (q : dot_S32x256_S256x4096_S32x4096_1_0_0_1_n_n.contr.Idx) :
    (dot_S32x256_S256x4096_S32x4096_1_0_0_1_n_n.rhsIdx i q 1).val = (i 1).val := by
  unfold DotDims.rhsIdx
  rw [dif_neg (show ¬(1 : Fin S256x4096.rank) ∈ dot_S32x256_S256x4096_S32x4096_1_0_0_1_n_n.rhsBatch by decide), dif_pos (show (1 : Fin S256x4096.rank) ∈ dot_S32x256_S256x4096_S32x4096_1_0_0_1_n_n.rhsNonContracting by decide)]
  rfl

/-! ## The two matrix products into a zero accumulator, at an element -/

/-- The first product at `(r, c)`: row `r` of the left operand against column `c` of the right. -/
theorem mm1_apply (A : FVec Ideal S256x32 .bf16) (B : FVec Ideal S32x4096 .bf16) (r : Fin 256) (c : Fin 4096) :
    matmul dot_S256x32_S32x4096_S256x4096_1_0_0_1_n_n none A B (constant S256x4096 .f32 0x00000000#32) (ix2 r c)
      = ∑ k : Fin 32, A (ix2 r k) * B (ix2 k c) := by
  show FloatOps.matmul dot_S256x32_S32x4096_S256x4096_1_0_0_1_n_n none A B (constant S256x4096 .f32 0x00000000#32) (ix2 r c) = _
  rw [Ideal.matmul_constant_zero_apply, ← Equiv.sum_comp (contrEquiv1 dot_S256x32_S32x4096_S256x4096_1_0_0_1_n_n 32 rfl rfl).symm]
  refine Finset.sum_congr rfl fun k _ => ?_
  have hk := contrEquiv1_symm_val dot_S256x32_S32x4096_S256x4096_1_0_0_1_n_n 32 rfl rfl k
  have el : dot_S256x32_S32x4096_S256x4096_1_0_0_1_n_n.lhsIdx (ix2 r c) ((contrEquiv1 dot_S256x32_S32x4096_S256x4096_1_0_0_1_n_n 32 rfl rfl).symm k) = ix2 r k := funext fun a => Fin.ext (by
    match a with
    | ⟨0, _⟩ => exact lhs_mm1_0 _ _
    | ⟨1, _⟩ => exact (lhs_mm1_1 _ _).trans hk)
  have er : dot_S256x32_S32x4096_S256x4096_1_0_0_1_n_n.rhsIdx (ix2 r c) ((contrEquiv1 dot_S256x32_S32x4096_S256x4096_1_0_0_1_n_n 32 rfl rfl).symm k) = ix2 k c := funext fun a => Fin.ext (by
    match a with
    | ⟨0, _⟩ => exact (rhs_mm1_0 _ _).trans hk
    | ⟨1, _⟩ => exact rhs_mm1_1 _ _)
  rw [el, er]

/-- The second product at `(r, c)`: row `r` of the left operand against column `c` of the right. -/
theorem mm2_apply (A : FVec Ideal S32x256 .bf16) (B : FVec Ideal S256x4096 .bf16) (r : Fin 32) (c : Fin 4096) :
    matmul dot_S32x256_S256x4096_S32x4096_1_0_0_1_n_n none A B (constant S32x4096 .f32 0x00000000#32) (ix2 r c)
      = ∑ k : Fin 256, A (ix2 r k) * B (ix2 k c) := by
  show FloatOps.matmul dot_S32x256_S256x4096_S32x4096_1_0_0_1_n_n none A B (constant S32x4096 .f32 0x00000000#32) (ix2 r c) = _
  rw [Ideal.matmul_constant_zero_apply, ← Equiv.sum_comp (contrEquiv1 dot_S32x256_S256x4096_S32x4096_1_0_0_1_n_n 256 rfl rfl).symm]
  refine Finset.sum_congr rfl fun k _ => ?_
  have hk := contrEquiv1_symm_val dot_S32x256_S256x4096_S32x4096_1_0_0_1_n_n 256 rfl rfl k
  have el : dot_S32x256_S256x4096_S32x4096_1_0_0_1_n_n.lhsIdx (ix2 r c) ((contrEquiv1 dot_S32x256_S256x4096_S32x4096_1_0_0_1_n_n 256 rfl rfl).symm k) = ix2 r k := funext fun a => Fin.ext (by
    match a with
    | ⟨0, _⟩ => exact lhs_mm2_0 _ _
    | ⟨1, _⟩ => exact (lhs_mm2_1 _ _).trans hk)
  have er : dot_S32x256_S256x4096_S32x4096_1_0_0_1_n_n.rhsIdx (ix2 r c) ((contrEquiv1 dot_S32x256_S256x4096_S32x4096_1_0_0_1_n_n 256 rfl rfl).symm k) = ix2 k c := funext fun a => Fin.ext (by
    match a with
    | ⟨0, _⟩ => exact (rhs_mm2_0 _ _).trans hk
    | ⟨1, _⟩ => exact rhs_mm2_1 _ _)
  rw [el, er]

/-! ## The three values at an element -/

/-- The loop's initial accumulator is zero everywhere. -/
theorem pay1_apply (n : Fin 32) (l : Fin 4096) : k0_pay1 (F := Ideal) (ix2 n l) = 0 := by
  unfold k0_pay1
  exact Ideal.ofBits_zero_f32

/-- One trip: the accumulator plus the trip's stacked second layer (row `n`) applied to the rectified
    stacked first layer of column `l` of the block. -/
theorem pay2_apply (x0 : Vec Ideal S1x32x4096 .f32) (b1g : Vec Ideal S256x1 .f32) (acc : FVec Ideal S32x4096 .f32)
    (w1 : Vec Ideal S1x256x32 .f32) (w2 : Vec Ideal S1x32x256 .f32) (n : Fin 32) (l : Fin 4096) :
    k0_pay2 x0 b1g acc w1 w2 (ix2 n l)
      = acc (ix2 n l) + ∑ k : Fin 256, w2 (ix3 0 n k)
          * max ((∑ n' : Fin 32, w1 (ix3 0 k n') * x0 (ix3 0 n' l)) + b1g (ix2 k 0)) 0 := by
  unfold k0_pay2
  refine congrArg (acc (ix2 n l) + ·) ?_
  refine (mm2_apply _ _ n l).trans ?_
  refine Finset.sum_congr rfl fun k _ => ?_
  refine congrArg₂ (· * ·) (shapeCast_1ab_ab_apply w2 _ n k) ?_
  refine congrArg₂ max ?_ Ideal.ofBits_zero_f32
  refine congrArg₂ (· + ·) ?_ ?_
  · refine (mm1_apply _ _ k l).trans ?_
    refine Finset.sum_congr rfl fun n' _ => ?_
    exact congrArg₂ (· * ·) (shapeCast_1ab_ab_apply w1 _ k n') (shapeCast_1ab_ab_apply x0 _ n' l)
  · refine (broadcastTo_a1_ab_apply _ _ k l).trans ?_
    rw [shapeCast_self]

/-- After the loop: the accumulated value plus the folded bias of row `n`. -/
theorem pay3_apply (v7 : FVec Ideal S32x4096 .f32) (b2f : Vec Ideal S32x1 .f32) (n : Fin 32) (l : Fin 4096) :
    k0_pay3 v7 b2f (ix3 0 n l) = v7 (ix2 n l) + b2f (ix2 n 0) := by
  unfold k0_pay3
  refine (shapeCast_ab_1ab_apply _ _ 0 n l).trans ?_
  refine congrArg (v7 (ix2 n l) + ·) ?_
  refine (broadcastTo_a1_ab_apply _ _ n l).trans ?_
  rw [shapeCast_self]

end Cert.KernelIdeal.Payload

end
-- ==== Proof.KerLoop.lean ====
import proofs.«411942_j19035295055965_2_alg».proof.Proof.Gen.KernelIdeal.Frame
import proofs.«411942_j19035295055965_2_alg».proof.Proof.KerPayload
import proofs.«411942_j19035295055965_2_alg».proof.Proof.Spec
import Idealize.ShloMosaic.Lib.Pipeline.Value
import Idealize.ShloMosaic.Lib.ValueIdx

/-!
# What the body leaves in the output block

The body loads the column block and the bias column, runs a loop of four trips, each loading block `k`
of the two stacked tables and adding that group's term to the carried accumulator, then adds the folded
bias and stores the whole block once. So the output's staging buffer ends at the last payload applied to
the four-fold iterate of the trip's payload from the zero accumulator; element by element on the
extended reals that is the kernel's formula `kerForm` of the blocks.
-/

set_option maxRecDepth 16384

noncomputable section

open scoped BigOperators

namespace Cert.KernelIdeal.LoopValue

open Cert.KernelIdeal Cert.KernelIdeal.Gen Idealize.ShloMosaic Idealize.ShloMosaic.TcCoe Idealize.ShloMosaic.ValueIdx
open Idealize.SL Idealize.SL.Sem

variable {F : FTy → Type} [FloatOps F]

/-- The loop runs four trips. -/
theorem trips_eq : k0_t1_loop.trips = 4 := by decide

/-- Trip `k` loads block `k` of both stacked tables: the load offsets are `(k, 0, 0)`. -/
theorem off1_0 : ∀ k : Fin k0_t1_loop.trips, k0_off1 k 0 = k.val := by decide
theorem off2_0 : ∀ k : Fin k0_t1_loop.trips, k0_off2 k 0 = k.val := by decide

/-- The blocks trip `k` loads from the two stacked tables. -/
abbrev rect1 (k : Fin k0_t1_loop.trips) : Rect S4x256x32 := Rect.unit (s := S4x256x32) (k0_off1 k) S1x256x32.size (k0_off1_inb k)
abbrev rect2 (k : Fin k0_t1_loop.trips) : Rect S4x32x256 := Rect.unit (s := S4x32x256) (k0_off2 k) S1x32x256.size (k0_off2_inb k)

/-- One trip's effect on the accumulator, for given contents of the column block, the bias column and
    the two stacked tables. -/
def step (x0 : Vec F S1x32x4096 .f32) (x1 : Vec F S4x256x32 .f32) (x2 : Vec F S4x32x256 .f32) (x3 : Vec F S256x1 .f32)
    (k : Fin k0_t1_loop.trips) (acc : FVec F S32x4096 .f32) : FVec F S32x4096 .f32 :=
  k0_pay2 x0 x3 acc (View.ld x1 (rect1 k)) (View.ld x2 (rect2 k))

/-- The trip the run found is that payload of the blocks it loads. -/
theorem tripR_eq (𝒱 : Variants) (c : Dev nD) (bd : Option 𝒱.V) (i : grid0.Coords) (arg2 : Memref sig .tc .vmem S1x32x4096 .f32) (harg2 : arg2.IsWhole) (arg3 : Memref sig .tc .vmem S4x256x32 .f32) (harg3 : arg3.IsWhole) (arg4 : Memref sig .tc .vmem S4x32x256 .f32) (harg4 : arg4.IsWhole) (arg5 : Memref sig .tc .vmem S256x1 .f32) (harg5 : arg5.IsWhole) (arg6 : Memref sig .tc .vmem S32x1 .f32) (harg6 : arg6.IsWhole) (arg7 : Memref sig .tc .vmem S1x32x4096 .f32) (harg7 : arg7.IsWhole) (v0 : Vec F S1x32x4096 .f32) (v3 : Vec F S256x1 .f32) (X_arg3 : BufTy.Contents (Elt F) arg3.view.ty) (X_arg4 : BufTy.Contents (Elt F) arg4.view.ty)
    (k : Fin k0_t1_loop.trips) (acc : FVec F S32x4096 .f32) :
    tripR_k0_t1 (F := F) 𝒱 c bd i arg2 harg2 arg3 harg3 arg4 harg4 arg5 harg5 arg6 harg6 arg7 harg7 v0 v3 X_arg3 X_arg4 k acc
      = k0_pay2 v0 v3 acc (View.readAt (Elt F) arg3.view (rect1 k).toLoadRect X_arg3)
          (View.readAt (Elt F) arg4.view (rect2 k).toLoadRect X_arg4) := by
  show (trip_k0_t1 (F := F) 𝒱 c bd i arg2 harg2 arg3 harg3 arg4 harg4 arg5 harg5 arg6 harg6 arg7 harg7 v0 v3 X_arg3 X_arg4 k).1 acc = _
  unfold trip_k0_t1
  rfl

/-- The four trips, by name. -/
abbrev t0 : Fin k0_t1_loop.trips := ⟨0, by rw [trips_eq]; decide⟩
abbrev t1 : Fin k0_t1_loop.trips := ⟨1, by rw [trips_eq]; decide⟩
abbrev t2 : Fin k0_t1_loop.trips := ⟨2, by rw [trips_eq]; decide⟩
abbrev t3 : Fin k0_t1_loop.trips := ⟨3, by rw [trips_eq]; decide⟩

/-- What the body leaves in the output's staging buffer: the folded bias added to the accumulator after the
    four trips from zero. -/
theorem out_eq (c : Dev nD) (i : grid0.Coords) (arg2 : Memref sig .tc .vmem S1x32x4096 .f32) (harg2 : arg2.IsWhole) (arg3 : Memref sig .tc .vmem S4x256x32 .f32) (harg3 : arg3.IsWhole) (arg4 : Memref sig .tc .vmem S4x32x256 .f32) (harg4 : arg4.IsWhole) (arg5 : Memref sig .tc .vmem S256x1 .f32) (harg5 : arg5.IsWhole) (arg6 : Memref sig .tc .vmem S32x1 .f32) (harg6 : arg6.IsWhole) (arg7 : Memref sig .tc .vmem S1x32x4096 .f32) (harg7 : arg7.IsWhole) (x0 : Vec F S1x32x4096 .f32) (x1 : Vec F S4x256x32 .f32) (x2 : Vec F S4x32x256 .f32) (x3 : Vec F S256x1 .f32) (x4 : Vec F S32x1 .f32) :
    out0_A_5 c i arg2 harg2 arg3 harg3 arg4 harg4 arg5 harg5 arg6 harg6 arg7 harg7 x0 x1 x2 x3 x4
      = k0_pay3 (step x0 x1 x2 x3 t3 (step x0 x1 x2 x3 t2 (step x0 x1 x2 x3 t1 (step x0 x1 x2 x3 t0 (k0_pay1 (F := F)))))) x4 := by
  have hz3 : (![0, 0, 0] : Fin 3 → Nat) = fun _ => 0 := by funext d; fin_cases d <;> rfl
  have hz2 : (![0, 0] : Fin 2 → Nat) = fun _ => 0 := by funext d; fin_cases d <;> rfl
  have h4 : Scf.trips (0#32) (Scalar.addi 0#32 4#32) 1#32 = 4 := by decide
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  rw [View.canon_unit_zero (S := S1x32x4096) hz3]
  simp only [View.readAt_eq_ld, Memref.IsWhole.read_unread, View.ld_unit_zero (S := S1x32x4096) hz3,
    View.ld_unit_zero (S := S256x1) hz2, View.ld_unit_zero (S := S32x1) hz2]
  rw [h4]
  have e4 := st_k0_t1_succ (F := F) Variants.none c none i arg2 harg2 arg3 harg3 arg4 harg4 arg5 harg5 arg6 harg6 arg7 harg7 x0 x3 (harg3.unread x1) (harg4.unread x2) k0_pay1 t3
  have e3 := st_k0_t1_succ (F := F) Variants.none c none i arg2 harg2 arg3 harg3 arg4 harg4 arg5 harg5 arg6 harg6 arg7 harg7 x0 x3 (harg3.unread x1) (harg4.unread x2) k0_pay1 t2
  have e2 := st_k0_t1_succ (F := F) Variants.none c none i arg2 harg2 arg3 harg3 arg4 harg4 arg5 harg5 arg6 harg6 arg7 harg7 x0 x3 (harg3.unread x1) (harg4.unread x2) k0_pay1 t1
  have e1 := st_k0_t1_succ (F := F) Variants.none c none i arg2 harg2 arg3 harg3 arg4 harg4 arg5 harg5 arg6 harg6 arg7 harg7 x0 x3 (harg3.unread x1) (harg4.unread x2) k0_pay1 t0
  refine congrArg (fun v => k0_pay3 v x4) ?_
  refine e4.trans ?_
  rw [tripR_eq, e3, tripR_eq, e2, tripR_eq, e1, tripR_eq]
  simp only [View.readAt_eq_ld, Memref.IsWhole.read_unread]
  rfl

/-- Block `k` of the stacked first layer at row `r`, column `q` is the table at `(k, r, q)`. -/
theorem ld1_apply (x1 : Vec F S4x256x32 .f32) (k : Fin k0_t1_loop.trips) (g : Fin 4) (hg : g.val = k.val) (r : Fin 256) (q : Fin 32) :
    View.ld x1 (rect1 k) (ix3 (0 : Fin 1) r q) = x1 (ix3 g r q) := by
  show x1 ((rect1 k).idx (ix3 (0 : Fin 1) r q)) = x1 (ix3 g r q)
  refine congrArg x1 (funext fun d => Fin.ext ?_)
  match d with
  | ⟨0, _⟩ => show k0_off1 k 0 + 1 * 0 = g.val; rw [off1_0 k, hg]; omega
  | ⟨1, _⟩ => show 0 + 1 * r.val = r.val; omega
  | ⟨2, _⟩ => show 0 + 1 * q.val = q.val; omega

/-- Block `k` of the stacked second layer at row `r`, column `q` is the table at `(k, r, q)`. -/
theorem ld2_apply (x2 : Vec F S4x32x256 .f32) (k : Fin k0_t1_loop.trips) (g : Fin 4) (hg : g.val = k.val) (r : Fin 32) (q : Fin 256) :
    View.ld x2 (rect2 k) (ix3 (0 : Fin 1) r q) = x2 (ix3 g r q) := by
  show x2 ((rect2 k).idx (ix3 (0 : Fin 1) r q)) = x2 (ix3 g r q)
  refine congrArg x2 (funext fun d => Fin.ext ?_)
  match d with
  | ⟨0, _⟩ => show k0_off2 k 0 + 1 * 0 = g.val; rw [off2_0 k, hg]; omega
  | ⟨1, _⟩ => show 0 + 1 * r.val = r.val; omega
  | ⟨2, _⟩ => show 0 + 1 * q.val = q.val; omega

/-- One trip at an element, on the extended reals: the accumulator plus group `g`'s term. -/
theorem step_apply (x0 : Vec Ideal S1x32x4096 .f32) (x1 : Vec Ideal S4x256x32 .f32) (x2 : Vec Ideal S4x32x256 .f32)
    (x3 : Vec Ideal S256x1 .f32) (k : Fin k0_t1_loop.trips) (g : Fin 4) (hg : g.val = k.val)
    (acc : FVec Ideal S32x4096 .f32) (n : Fin 32) (l : Fin 4096) :
    step x0 x1 x2 x3 k acc (ix2 n l)
      = acc (ix2 n l) + Cert.Sym.grpTerm (fun n' => x0 (ix3 (0 : Fin 1) n' l)) (fun g k n' => x1 (ix3 g k n'))
          (fun g n k => x2 (ix3 g n k)) (fun k => x3 (ix2 k (0 : Fin 1))) n g := by
  unfold step
  rw [Cert.KernelIdeal.Payload.pay2_apply]
  unfold Cert.Sym.grpTerm
  simp only [ld1_apply x1 k g hg, ld2_apply x2 k g hg]

/-- One element of the output block on the extended reals: the kernel's formula of the blocks. -/
theorem out_apply (c : Dev nD) (i : grid0.Coords) (arg2 : Memref sig .tc .vmem S1x32x4096 .f32) (harg2 : arg2.IsWhole) (arg3 : Memref sig .tc .vmem S4x256x32 .f32) (harg3 : arg3.IsWhole) (arg4 : Memref sig .tc .vmem S4x32x256 .f32) (harg4 : arg4.IsWhole) (arg5 : Memref sig .tc .vmem S256x1 .f32) (harg5 : arg5.IsWhole) (arg6 : Memref sig .tc .vmem S32x1 .f32) (harg6 : arg6.IsWhole) (arg7 : Memref sig .tc .vmem S1x32x4096 .f32) (harg7 : arg7.IsWhole) (x0 : Vec Ideal S1x32x4096 .f32) (x1 : Vec Ideal S4x256x32 .f32) (x2 : Vec Ideal S4x32x256 .f32) (x3 : Vec Ideal S256x1 .f32) (x4 : Vec Ideal S32x1 .f32)
    (n : Fin 32) (l : Fin 4096) :
    out0_A_5 (F := Ideal) c i arg2 harg2 arg3 harg3 arg4 harg4 arg5 harg5 arg6 harg6 arg7 harg7 x0 x1 x2 x3 x4 (ix3 (0 : Fin 1) n l)
      = Cert.Sym.kerForm (fun n' => x0 (ix3 (0 : Fin 1) n' l)) (fun g k n' => x1 (ix3 g k n'))
          (fun g n k => x2 (ix3 g n k)) (fun k => x3 (ix2 k (0 : Fin 1))) (fun n => x4 (ix2 n (0 : Fin 1))) n := by
  rw [out_eq, Cert.KernelIdeal.Payload.pay3_apply]
  rw [step_apply x0 x1 x2 x3 t3 3 rfl, step_apply x0 x1 x2 x3 t2 2 rfl, step_apply x0 x1 x2 x3 t1 1 rfl,
    step_apply x0 x1 x2 x3 t0 0 rfl, Cert.KernelIdeal.Payload.pay1_apply]
  rfl

end Cert.KernelIdeal.LoopValue

end
-- ==== Proof.KerValue.lean ====
import proofs.«411942_j19035295055965_2_alg».proof.Proof.Gen.KernelIdeal.Value
import proofs.«411942_j19035295055965_2_alg».proof.Proof.KerLoop
import proofs.«411942_j19035295055965_2_alg».proof.Proof.KerArgs
import proofs.«411942_j19035295055965_2_alg».proof.Proof.Spec
import Idealize.ShloMosaic.Lib.Pipeline.Value
import Idealize.ShloMosaic.Lib.ValueIdx

/-!
# The kernel's result array as one function of what the region finds

The grid has 16 × 4 points; point `(b, j)` stages the `32 × 4096` block `x[b, :, 4096 j …]` of the input
and the four tables whole, and writes back the block of the same place of the output. What it writes is,
element by element, the kernel's formula of the staged column and the tables, so every block written back
is a block of ONE function of the input array and the tables; the blocks tile the output array, so the
array ends holding that function.
-/

set_option maxRecDepth 16384

noncomputable section

open scoped BigOperators

namespace Cert.KernelIdeal.ArrayValue

open Cert.KernelIdeal Cert.KernelIdeal.Gen Cert.KernelIdeal.HostTables Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The output element at batch `b`, feature `n`, position `L`: the kernel's formula of the column
    `x[b, ·, L]` and the four tables the region finds. -/
def elemOf (c : Dev nD) (b : Fin 16) (n : Fin 32) (L : Fin 16384) : EReal :=
  Cert.Sym.kerForm (fun n' => argX m c (ix3 b n' L)) (fun g k n' => tblW1g m c (ix3 g k n'))
    (fun g n k => tblW2g m c (ix3 g n k)) (fun k => tblB1g m c (ix2 k (0 : Fin 1))) (fun n => tblB2f m c (ix2 n (0 : Fin 1))) n

/-- The whole output array as that function of the index. -/
def arrOf (c : Dev nD) : FVec Ideal S16x32x16384 .f32 :=
  fun i => elemOf m c ⟨(i 0).val, (i 0).isLt⟩ ⟨(i 1).val, (i 1).isLt⟩ ⟨(i 2).val, (i 2).isLt⟩

/-- The printed index maps, decided over the 64 grid points: the input block moves with the output block,
    the four tables stay at block 0, and the output's block indices stay in their ranges. -/
theorem grid_index_facts : ∀ t : Fin cfg0.N,
    win0_0.index t (0 : Fin 3) = win0_5.index t (0 : Fin 3) ∧ win0_0.index t (1 : Fin 3) = 0
    ∧ win0_0.index t (2 : Fin 3) = win0_5.index t (2 : Fin 3)
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 15 ∧ win0_5.index t (1 : Fin 3) = 0 ∧ win0_5.index t (2 : Fin 3) ≤ 3 :=
  (by decide +kernel : ∀ t : Fin grid0.N, _)

/-- Every block of the output is some point's. -/
theorem block_is_some_points : ∀ (q0 : Fin 16) (q2 : Fin 4), ∃ t : Fin cfg0.N, win0_5.index t = ![q0.val, 0, q2.val] :=
  (by decide +kernel : ∀ (q0 : Fin 16) (q2 : Fin 4), ∃ t : Fin grid0.N, win0_5.index t = ![q0.val, 0, q2.val])

/-- The staged input block at `(0, n', l)` is the input array at the block's place. -/
theorem xblk_apply (c : Dev nD) (t : Fin cfg0.N) (n' : Fin 32) (l : Fin 4096) (b : Fin 16) (L : Fin 16384)
    (hb : b.val = win0_5.index t (0 : Fin 3)) (hL : L.val = win0_5.index t (2 : Fin 3) * 4096 + l.val) :
    iblk m c 0 t (ix3 (0 : Fin 1) n' l) = argX m c (ix3 b n' L) := by
  obtain ⟨e00, e01, e02, -⟩ := grid_index_facts t
  show V m c main_arg0 (((cfg0.win 0).blk t).view.emb (ix3 (0 : Fin 1) n' l)) = argX m c (ix3 b n' L)
  rw [V_main_arg0]
  refine congrArg (argX m c) (funext fun a => Fin.ext ?_)
  match a with
  | ⟨0, _⟩ => show win0_0.index t (0 : Fin 3) * 1 + 1 * 0 = b.val; omega
  | ⟨1, _⟩ => show win0_0.index t (1 : Fin 3) * 32 + 1 * n'.val = n'.val; omega
  | ⟨2, _⟩ => show win0_0.index t (2 : Fin 3) * 4096 + 1 * l.val = L.val; omega

/-- The four tables are staged whole. -/
theorem w1blk_apply (c : Dev nD) (t : Fin cfg0.N) (g : Fin 4) (k : Fin 256) (n' : Fin 32) :
    iblk m c 1 t (ix3 g k n') = tblW1g m c (ix3 g k n') := by
  obtain ⟨-, -, -, e0, e1, e2, -⟩ := grid_index_facts t
  show V m c main_v11 (((cfg0.win 1).blk t).view.emb (ix3 g k n')) = tblW1g m c (ix3 g k n')
  refine congrArg (tblW1g m c) (funext fun a => Fin.ext ?_)
  match a with
  | ⟨0, _⟩ => show win0_1.index t (0 : Fin 3) * 4 + 1 * g.val = g.val; omega
  | ⟨1, _⟩ => show win0_1.index t (1 : Fin 3) * 256 + 1 * k.val = k.val; omega
  | ⟨2, _⟩ => show win0_1.index t (2 : Fin 3) * 32 + 1 * n'.val = n'.val; omega

theorem w2blk_apply (c : Dev nD) (t : Fin cfg0.N) (g : Fin 4) (n : Fin 32) (k : Fin 256) :
    iblk m c 2 t (ix3 g n k) = tblW2g m c (ix3 g n k) := by
  obtain ⟨-, -, -, -, -, -, e0, e1, e2, -⟩ := grid_index_facts t
  show V m c main_v14 (((cfg0.win 2).blk t).view.emb (ix3 g n k)) = tblW2g m c (ix3 g n k)
  refine congrArg (tblW2g m c) (funext fun a => Fin.ext ?_)
  match a with
  | ⟨0, _⟩ => show win0_2.index t (0 : Fin 3) * 4 + 1 * g.val = g.val; omega
  | ⟨1, _⟩ => show win0_2.index t (1 : Fin 3) * 32 + 1 * n.val = n.val; omega
  | ⟨2, _⟩ => show win0_2.index t (2 : Fin 3) * 256 + 1 * k.val = k.val; omega

theorem b1blk_apply (c : Dev nD) (t : Fin cfg0.N) (k : Fin 256) :
    iblk m c 3 t (ix2 k (0 : Fin 1)) = tblB1g m c (ix2 k (0 : Fin 1)) := by
  obtain ⟨-, -, -, -, -, -, -, -, -, e0, e1, -⟩ := grid_index_facts t
  show V m c main_v18 (((cfg0.win 3).blk t).view.emb (ix2 k (0 : Fin 1))) = tblB1g m c (ix2 k (0 : Fin 1))
  refine congrArg (tblB1g m c) (funext fun a => Fin.ext ?_)
  match a with
  | ⟨0, _⟩ => show win0_3.index t (0 : Fin 2) * 256 + 1 * k.val = k.val; omega
  | ⟨1, _⟩ => show win0_3.index t (1 : Fin 2) * 1 + 1 * 0 = 0; omega

theorem b2blk_apply (c : Dev nD) (t : Fin cfg0.N) (n : Fin 32) :
    iblk m c 4 t (ix2 n (0 : Fin 1)) = tblB2f m c (ix2 n (0 : Fin 1)) := by
  obtain ⟨-, -, -, -, -, -, -, -, -, -, -, e0, e1, -⟩ := grid_index_facts t
  show V m c main_v10 (((cfg0.win 4).blk t).view.emb (ix2 n (0 : Fin 1))) = tblB2f m c (ix2 n (0 : Fin 1))
  refine congrArg (tblB2f m c) (funext fun a => Fin.ext ?_)
  match a with
  | ⟨0, _⟩ => show win0_4.index t (0 : Fin 2) * 32 + 1 * n.val = n.val; omega
  | ⟨1, _⟩ => show win0_4.index t (1 : Fin 2) * 1 + 1 * 0 = 0; omega

/-- What point `t` leaves in the output's staging buffer at `(0, n, l)` is the array function at the
    place `(b, n₂, L)` of that element in the array. -/
theorem out_elem (c : Dev nD) (t : Fin cfg0.N) (n : Fin 32) (l : Fin 4096) (b : Fin 16) (n₂ : Fin 32) (L : Fin 16384)
    (hb : b.val = win0_5.index t (0 : Fin 3) * 1 + 1 * 0) (hn : n₂.val = win0_5.index t (1 : Fin 3) * 32 + 1 * n.val)
    (hL : L.val = win0_5.index t (2 : Fin 3) * 4096 + 1 * l.val) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix3 (0 : Fin 1) n l) = elemOf m c b n₂ L := by
  obtain ⟨-, -, -, -, -, -, -, -, -, -, -, -, -, e0, e1, e2⟩ := grid_index_facts t
  obtain rfl : n₂ = n := Fin.ext (by omega)
  have hb' : b.val = win0_5.index t (0 : Fin 3) := by omega
  have hL' : L.val = win0_5.index t (2 : Fin 3) * 4096 + l.val := by omega
  refine (Cert.KernelIdeal.LoopValue.out_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) n₂ l).trans ?_
  unfold elemOf
  have h0 : (fun n' : Fin 32 => iblk m c 0 t (ix3 (0 : Fin 1) n' l)) = fun n' => argX m c (ix3 b n' L) :=
    funext fun n' => xblk_apply m c t n' l b L hb' hL'
  have h1 : (fun (g : Fin 4) (k : Fin 256) (n' : Fin 32) => iblk m c 1 t (ix3 g k n')) = fun g k n' => tblW1g m c (ix3 g k n') :=
    funext fun g => funext fun k => funext fun n' => w1blk_apply m c t g k n'
  have h2 : (fun (g : Fin 4) (n : Fin 32) (k : Fin 256) => iblk m c 2 t (ix3 g n k)) = fun g n k => tblW2g m c (ix3 g n k) :=
    funext fun g => funext fun n => funext fun k => w2blk_apply m c t g n k
  have h3 : (fun k : Fin 256 => iblk m c 3 t (ix2 k (0 : Fin 1))) = fun k => tblB1g m c (ix2 k (0 : Fin 1)) :=
    funext fun k => b1blk_apply m c t k
  have h4 : (fun n : Fin 32 => iblk m c 4 t (ix2 n (0 : Fin 1))) = fun n => tblB2f m c (ix2 n (0 : Fin 1)) :=
    funext fun n => b2blk_apply m c t n
  rw [h0, h1, h2, h3, h4]

/-- The place in the array of element `y` of point `t`'s output block. -/
abbrev place (t : Fin cfg0.N) (y : S1x32x4096.Idx) : S16x32x16384.Idx := ((cfg0.win 5).blk t).view.emb y

/-- Two functions on the block's indices that agree at every `(0, n, l)` are equal. -/
theorem block_fun_ext {α : Type} (f g : S1x32x4096.Idx → α)
    (h : ∀ (n : Fin 32) (l : Fin 4096), f (ix3 (0 : Fin 1) n l) = g (ix3 (0 : Fin 1) n l)) : f = g := by
  funext j
  obtain ⟨z, n, l, rfl⟩ : ∃ (z : Fin 1) (n : Fin 32) (l : Fin 4096), j = ix3 z n l := ⟨j 0, j 1, j 2, eq_ix3 j⟩
  obtain rfl : z = 0 := Subsingleton.elim _ _
  exact h n l

/-- At `(0, n, l)`, what point `t` leaves in the staging buffer is the array function at that element's place. -/
theorem written_back_at (c : Dev nD) (t : Fin cfg0.N) (n : Fin 32) (l : Fin 4096) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix3 (0 : Fin 1) n l) = arrOf m c (place t (ix3 (0 : Fin 1) n l)) :=
  out_elem m c t n l
    ⟨(place t (ix3 (0 : Fin 1) n l) 0).val, (place t (ix3 (0 : Fin 1) n l) 0).isLt⟩
    ⟨(place t (ix3 (0 : Fin 1) n l) 1).val, (place t (ix3 (0 : Fin 1) n l) 1).isLt⟩
    ⟨(place t (ix3 (0 : Fin 1) n l) 2).val, (place t (ix3 (0 : Fin 1) n l) 2).isLt⟩ rfl rfl rfl

/-- WHAT POINT `t` WRITES BACK is block `t` of the array function. -/
theorem written_back_eq (c : Dev nD) (t : Fin cfg0.N) :
    (dats m 0 c).flushed 5 t = ((cfg0.win 5).blk t).view.read (Elt Ideal) (arrOf m c) := by
  rw [Cert.KernelIdeal.Value.flushed5_A]
  exact block_fun_ext (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)) (fun y => arrOf m c (place t y)) (fun n l => written_back_at m c t n l)

/-- An index of the array is in point `t`'s block iff each coordinate is in the block's range on its axis. -/
theorem mem_block_iff (t : Fin cfg0.N) (i : S16x32x16384.Idx) :
    i ∈ ((cfg0.win 5).blk t).view.set ↔ ∀ a : Fin 3, win0_5.index t a * S1x32x4096.size a ≤ (i a).val ∧ (i a).val < win0_5.index t a * S1x32x4096.size a + S1x32x4096.size a := by
  show i ∈ ((View.whole main_v19).slice (win0_5.rect t)).set ↔ _
  rw [View.set_slice_whole, Rect.mem_set_unit]
  exact Iff.rfl

/-- The output's blocks tile the array. -/
theorem blocks_tile (i : S16x32x16384.Idx) : ∃ t : Fin cfg0.N, (cfg0.win 5).flush t = true ∧ i ∈ ((cfg0.win 5).blk t).view.set := by
  have hi0 : (i 0).val < 16 := (i 0).isLt
  have hi1 : (i 1).val < 32 := (i 1).isLt
  have hi2 : (i 2).val < 16384 := (i 2).isLt
  obtain ⟨t, ht⟩ := block_is_some_points ⟨(i 0).val, hi0⟩ ⟨(i 2).val / 4096, by omega⟩
  have q0 : win0_5.index t (0 : Fin 3) = (i 0).val := congrFun ht 0
  have q1 : win0_5.index t (1 : Fin 3) = 0 := congrFun ht 1
  have q2 : win0_5.index t (2 : Fin 3) = (i 2).val / 4096 := congrFun ht 2
  refine ⟨t, flush0_5 t, ?_⟩
  rw [mem_block_iff]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 32 ≤ (i 1).val ∧ (i 1).val < win0_5.index t (1 : Fin 3) * 32 + 32; omega
  | ⟨2, _⟩ => show win0_5.index t (2 : Fin 3) * 4096 ≤ (i 2).val ∧ (i 2).val < win0_5.index t (2 : Fin 3) * 4096 + 4096; omega

/-- THE ARRAY after the run is the array function. -/
theorem array_after_run (c : Dev nD) : (dats m 0 c).arrAt 5 cfg0.N = arrOf m c :=
  (dats m 0 c).arrAt_eq_of_cover 5 (arrOf m c) (fun t _ => written_back_eq m c t) blocks_tile

/-- The kernel's run with its result array at the array function, the arguments unchanged. -/
theorem run : θ_run defs (onTc (τ := τ) (main (F := Ideal))) ⟨m, fun _ => 0, ρ⟩ fun r => ∀ c : Dev nD,
      r.2.mem ((c : Thread nD τ).loc main_v19) = arrOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (array_after_run m c), (h c).2⟩) (Cert.KernelIdeal.Value.run_blocks m ρ)

end Cert.KernelIdeal.ArrayValue

end
-- ==== Proof.RefValueA.lean ====
import proofs.«411942_j19035295055965_2_alg».proof.Proof.RefRead
import proofs.«411942_j19035295055965_2_alg».proof.Proof.LibIndexWords
import Idealize.ShloMosaic.Lib.ValueIdx
import Idealize.ShloMosaic.Lib.Pipeline.Value
import Idealize.ShloMosaic.PureOps.Ideal.Laws

/-!
# The reference's network output before the inverse gather, at one index

The reference gathers the 32 features of every column through each of the sixteen permutation rows
(the gather clamps its start indices; idle here, every index word being a position below 32), and applies
the two-layer network with a rectifier to each permuted column. Here the array it holds before the
inverse gather is read at an index `(p, b, o, l)`: output feature `o` of the network on column `x[b, ·, l]`
read through the positions `π p n'` of permutation row `p`.
-/

noncomputable section

open scoped BigOperators

namespace Cert.ReferenceIdeal.RefValue

open Cert.ReferenceIdeal Cert.ReferenceIdeal.Gen Idealize.ShloMosaic Idealize.ShloMosaic.ValueIdx

/-- The forward gather's dimension numbers: operand `[16, 32, 16384]`, start indices `[16, 32, 1]`, result
    `[16, 16, 32, 16384]`; offset axes 0 and 3, the feature axis collapsed and start-indexed. -/
local notation "GD" => gather_S16x32x16384_S16x32x1_S16x16x32x16384_03_1_n_n_1_2_16116384

/-- The forward gather at an index: batch and column are the result's offset coordinates; the feature is the
    start index of permutation row `p` at position `n'`, read signed and clamped into the 32 features. -/
theorem RefValueA_gather_apply {α : Type} (x : S16x32x16384.Idx → α) (idx : IVec S16x32x1 32)
    (b : Fin 16) (p : Fin 16) (n' : Fin 32) (l : Fin 16384) :
    Host.gather GD x idx (ix4 b p n' l)
      = x (ix3 b ⟨min (idx (ix3 p n' (0 : Fin 1))).toInt.toNat (32 - 1), by omega⟩ l) := by
  unfold Host.gather
  congr 1
  funext a
  refine Fin.ext ?_
  have hb : ∀ a : Fin 3, a ∉ (GD).operandBatchingDims := fun a => List.not_mem_nil
  match a with
  | ⟨0, _⟩ =>
    show (GD).start (ix4 b p n' l) idx (0 : Fin 3) + (GD).batchCoord (ix4 b p n' l) (0 : Fin 3) + (GD).offCoord (ix4 b p n' l) (0 : Fin 3) = b.val
    rw [GatherDims.batchCoord_eq_zero _ _ _ (hb _)]
    unfold GatherDims.start GatherDims.offCoord
    rw [dif_neg (show ¬ (0 : Fin 3) ∈ (GD).startIndexMap by decide), dif_pos (show (0 : Fin 3) ∈ (GD).sKept by decide), Nat.zero_add]
    rfl
  | ⟨1, _⟩ =>
    show (GD).start (ix4 b p n' l) idx (1 : Fin 3) + (GD).batchCoord (ix4 b p n' l) (1 : Fin 3) + (GD).offCoord (ix4 b p n' l) (1 : Fin 3) = min (idx (ix3 p n' (0 : Fin 1))).toInt.toNat (32 - 1)
    rw [GatherDims.batchCoord_eq_zero _ _ _ (hb _), GatherDims.offCoord_eq_zero _ _ _ (show ¬ (1 : Fin 3) ∈ (GD).sKept by decide)]
    unfold GatherDims.start
    rw [dif_pos (show (1 : Fin 3) ∈ (GD).startIndexMap by decide)]
    have hsi : (GD).siIdx (ix4 b p n' l) ⟨List.idxOf (1 : Fin 3) (GD).startIndexMap,
        List.idxOf_lt_length_iff.2 (show (1 : Fin 3) ∈ (GD).startIndexMap by decide)⟩ = ix3 p n' (0 : Fin 1) := by
      funext c; refine Fin.ext ?_
      match c with
      | ⟨0, _⟩ => rfl
      | ⟨1, _⟩ => rfl
      | ⟨2, _⟩ => rfl
    rw [hsi]
    rfl
  | ⟨2, _⟩ =>
    show (GD).start (ix4 b p n' l) idx (2 : Fin 3) + (GD).batchCoord (ix4 b p n' l) (2 : Fin 3) + (GD).offCoord (ix4 b p n' l) (2 : Fin 3) = l.val
    rw [GatherDims.batchCoord_eq_zero _ _ _ (hb _)]
    unfold GatherDims.start GatherDims.offCoord
    rw [dif_neg (show ¬ (2 : Fin 3) ∈ (GD).startIndexMap by decide), dif_pos (show (2 : Fin 3) ∈ (GD).sKept by decide), Nat.zero_add]
    rfl

/-- The start indices the forward gather reads: the negative-index wrap leaves a position word alone. -/
theorem RefValueA_v5_apply (perms : IVec S16x32 32) (π : Fin 16 → Fin 32 → Fin 32)
    (hπ : ∀ p n, perms (ix2 p n) = BitVec.ofNat 32 (π p n).val) (p : Fin 16) (n : Fin 32) :
    Cert.ReferenceIdeal.ReadP.val_main_v5 (F := Ideal) perms (ix3 p n (0 : Fin 1)) = BitVec.ofNat 32 (π p n).val := by
  have e5 : Cert.ReferenceIdeal.ReadP.idx_main_v5 (ix3 p n (0 : Fin 1)) = ix2 p n :=
    funext fun a => Fin.ext (by match a with | ⟨0, _⟩ => rfl | ⟨1, _⟩ => rfl)
  rw [Cert.ReferenceIdeal.ReadP.val_main_v5_apply, e5, Cert.ReferenceIdeal.ReadP.val_main_v4_apply,
    Cert.ReferenceIdeal.ReadP.val_main_v1_apply, Cert.ReferenceIdeal.ReadP.val_main_v3_apply,
    Cert.ReferenceIdeal.ReadP.val_main_v0_apply, Cert.ReferenceIdeal.ReadP.val_main_c_apply, hπ p n]
  exact Cert.LibIndexWords.wrap_of_nonneg _ _
    (by rw [Cert.LibIndexWords.toInt_ofNat_fin (by decide) (π p n)]; exact Int.natCast_nonneg _)

/-- The gathered array at an index: feature `π p n'` of column `l` of batch `b`. -/
theorem RefValueA_v6_apply (x : FVec Ideal S16x32x16384 .f32) (perms : IVec S16x32 32) (π : Fin 16 → Fin 32 → Fin 32)
    (hπ : ∀ p n, perms (ix2 p n) = BitVec.ofNat 32 (π p n).val)
    (b : Fin 16) (p : Fin 16) (n' : Fin 32) (l : Fin 16384) :
    Cert.ReferenceIdeal.ReadP.val_main_v6 (F := Ideal) x perms (ix4 b p n' l) = x (ix3 b (π p n') l) := by
  unfold Cert.ReferenceIdeal.ReadP.val_main_v6
  rw [RefValueA_gather_apply]
  have hw : (Cert.ReferenceIdeal.ReadP.val_main_v5 (F := Ideal) perms (ix3 p n' (0 : Fin 1))).toInt = ((π p n').val : ℤ) := by
    rw [RefValueA_v5_apply perms π hπ]
    exact Cert.LibIndexWords.toInt_ofNat_fin (by decide) (π p n')
  congr 1
  funext a
  match a with
  | ⟨0, _⟩ => rfl
  | ⟨1, _⟩ => exact Cert.LibIndexWords.clamp_fin_of_eq _ 32 (π p n') hw _
  | ⟨2, _⟩ => rfl

/-- The network's output for permutation `p`, batch `b`, output feature `o`, column `l`. -/
theorem net_apply (x : FVec Ideal S16x32x16384 .f32) (perms : IVec S16x32 32) (W1 : FVec Ideal S64x32 .f32)
    (b1 : FVec Ideal S64 .f32) (W2 : FVec Ideal S32x64 .f32) (b2 : FVec Ideal S32 .f32)
    (π : Fin 16 → Fin 32 → Fin 32)
    (hπ : ∀ p n, perms (ix2 p n) = BitVec.ofNat 32 (π p n).val)
    (p : Fin 16) (b : Fin 16) (o : Fin 32) (l : Fin 16384) :
    Cert.ReferenceIdeal.ReadP.val_main_v17 (F := Ideal) x perms W1 b1 W2 b2 (ix4 p b o l)
      = (∑ hh : Fin 64, max ((∑ n' : Fin 32, x (ix3 b (π p n') l) * W1 (ix2 hh n')) + b1 (ix1 hh)) 0 * W2 (ix2 o hh))
          + b2 (ix1 o) := by
  -- the second transpose swaps feature and column back
  have e17 : Cert.ReferenceIdeal.ReadP.idx_main_v17 (ix4 p b o l) = ix4 p b l o :=
    funext fun a => Fin.ext (by match a with | ⟨0, _⟩ => rfl | ⟨1, _⟩ => rfl | ⟨2, _⟩ => rfl | ⟨3, _⟩ => rfl)
  -- the second bias is laid along the last axis
  have e15 : Cert.ReferenceIdeal.ReadP.idx_main_v14 (Cert.ReferenceIdeal.ReadP.idx_main_v15 (ix4 p b l o)) = ix1 o :=
    funext fun a => Fin.ext (by match a with | ⟨0, _⟩ => rfl)
  -- the second product contracts the hidden axis
  have el13 : ∀ k : Fin 64, Cert.ReferenceIdeal.ReadP.lidx_main_v13 (ix4 p b l o) k = ix4 p b l k := fun k =>
    funext fun a => Fin.ext (by match a with | ⟨0, _⟩ => rfl | ⟨1, _⟩ => rfl | ⟨2, _⟩ => rfl | ⟨3, _⟩ => rfl)
  have er13 : ∀ k : Fin 64, Cert.ReferenceIdeal.ReadP.ridx_main_v13 (ix4 p b l o) k = ix2 o k := fun k =>
    funext fun a => Fin.ext (by match a with | ⟨0, _⟩ => rfl | ⟨1, _⟩ => rfl)
  -- the first bias is laid along the last axis
  have e10 : ∀ k : Fin 64, Cert.ReferenceIdeal.ReadP.idx_main_v9 (Cert.ReferenceIdeal.ReadP.idx_main_v10 (ix4 p b l k)) = ix1 k := fun k =>
    funext fun a => Fin.ext (by match a with | ⟨0, _⟩ => rfl)
  -- the first product contracts the permuted feature axis
  have el8 : ∀ (hh : Fin 64) (k : Fin 32), Cert.ReferenceIdeal.ReadP.lidx_main_v8 (ix4 p b l hh) k = ix4 p b l k := fun hh k =>
    funext fun a => Fin.ext (by match a with | ⟨0, _⟩ => rfl | ⟨1, _⟩ => rfl | ⟨2, _⟩ => rfl | ⟨3, _⟩ => rfl)
  have er8 : ∀ (hh : Fin 64) (k : Fin 32), Cert.ReferenceIdeal.ReadP.ridx_main_v8 (ix4 p b l hh) k = ix2 hh k := fun hh k =>
    funext fun a => Fin.ext (by match a with | ⟨0, _⟩ => rfl | ⟨1, _⟩ => rfl)
  -- the first transpose turns the gather's layout [b, p, n', l] into [p, b, l, n']
  have e7 : ∀ k : Fin 32, Cert.ReferenceIdeal.ReadP.idx_main_v7 (ix4 p b l k) = ix4 b p k l := fun k =>
    funext fun a => Fin.ext (by match a with | ⟨0, _⟩ => rfl | ⟨1, _⟩ => rfl | ⟨2, _⟩ => rfl | ⟨3, _⟩ => rfl)
  rw [Cert.ReferenceIdeal.ReadP.val_main_v17_apply, e17, Cert.ReferenceIdeal.ReadP.val_main_v16_apply,
    Cert.ReferenceIdeal.ReadP.val_main_v13_apply, Cert.ReferenceIdeal.ReadP.val_main_v15_apply,
    Cert.ReferenceIdeal.ReadP.val_main_v14_apply, e15]
  simp only [el13, er13, Cert.ReferenceIdeal.ReadP.val_main_v12_apply, Cert.ReferenceIdeal.ReadP.val_main_v11_apply,
    Cert.ReferenceIdeal.ReadP.val_main_v8_apply, el8, er8, Cert.ReferenceIdeal.ReadP.val_main_v7_apply, e7,
    RefValueA_v6_apply x perms π hπ, Cert.ReferenceIdeal.ReadP.val_main_v10_apply,
    Cert.ReferenceIdeal.ReadP.val_main_v9_apply, e10, Cert.ReferenceIdeal.ReadP.val_main_call0_v0_apply,
    Cert.ReferenceIdeal.ReadP.val_main_call0_cst_apply, Ideal.addf_def, Ideal.mulf_def, Ideal.maximumf_def,
    Ideal.ofBits_def, Ideal.ofBits_zero_f32]

end Cert.ReferenceIdeal.RefValue

end
-- ==== Proof.RefValueB.lean ====
import proofs.«411942_j19035295055965_2_alg».proof.Proof.RefRead
import proofs.«411942_j19035295055965_2_alg».proof.Proof.LibIndexWords
import Idealize.ShloMosaic.Lib.ValueIdx
import Idealize.ShloMosaic.Lib.Pipeline.Value
import Idealize.ShloMosaic.Lib.Affine
import Idealize.ShloMosaic.PureOps.Ideal.Laws

/-!
# The reference's inverse gather and mean, at one index

After the network the reference reads its output features back through the argsort of each permutation
row (a batched gather that clamps its start indices, under a mask that fills out-of-range reads with a
NaN; both idle here, every argsort word being a position below 32), sums the sixteen permutations' results
from zero and divides by the float 16. Here the result array is read at an index `(b, n, l)` in terms of
the array before the inverse gather and the positions `σ p n` the argsort holds.
-/

noncomputable section

open scoped BigOperators

namespace Cert.ReferenceIdeal.RefValue

open Cert.ReferenceIdeal Cert.ReferenceIdeal.Gen Idealize.ShloMosaic Idealize.ShloMosaic.ValueIdx

/-- A position below 32, as a word, has that position as its signed value. -/
private theorem RefValueB_toInt (k : Fin 32) : (BitVec.ofNat 32 k.val).toInt = (k.val : ℤ) :=
  Cert.LibIndexWords.toInt_ofNat_fin (by decide) k

/-- A left fold by `and` from the bit 1 over bits that are all 1 is 1. -/
private theorem RefValueB_foldl_andi {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a]
    exact RefValueB_foldl_andi f hf l

/-- A reduce by `and` from the bit 1 of an array whose every bit is 1 is 1 at every result index. -/
private theorem RefValueB_reduce_andi_one {s t u : Shape} {axes : List (Fin s.rank)} (x : s.Idx → BitVec 1)
    (init : u.Idx → BitVec 1) (h : s.ReducesTo axes t) (hu : 0 < u.numel) (hx : ∀ i, x i = 1#1)
    (hi : init (Shape.Idx.first hu) = 1#1) (j : t.Idx) : Host.reduce IntOp.andi x init h hu j = 1#1 := by
  unfold Host.reduce
  rw [hi]
  exact RefValueB_foldl_andi (fun n => x (s.rowMajor.symm n)) (fun n => hx _) _

/-- The argsort's word at `(p, n)`. -/
private theorem RefValueB_v18 (perms : IVec S16x32 32) (σ : Fin 16 → Fin 32 → Fin 32)
    (hσ : ∀ p n, (Host.sort2 S16x32 1 comparator_i32_i32_d1 perms (iotaInDim S16x32 32 1)).2 (ix2 p n)
        = BitVec.ofNat 32 (σ p n).val) (p : Fin 16) (n : Fin 32) :
    ReadP.val_main_v18 (F := Ideal) perms (ix2 p n) = BitVec.ofNat 32 (σ p n).val := by
  unfold ReadP.val_main_v18 ReadP.val_main_call1_v0
  exact hσ p n

/-- The start index the inverse gather reads at `(p, n)`: the wrap of a negative index leaves the argsort's word,
    a position below 32, alone. -/
private theorem RefValueB_v5 (perms : IVec S16x32 32) (σ : Fin 16 → Fin 32 → Fin 32)
    (hσ : ∀ p n, (Host.sort2 S16x32 1 comparator_i32_i32_d1 perms (iotaInDim S16x32 32 1)).2 (ix2 p n)
        = BitVec.ofNat 32 (σ p n).val) (p : Fin 16) (n : Fin 32) :
    ReadP.val_main_call2_v5 (F := Ideal) perms (ix3 p n (0 : Fin 1)) = BitVec.ofNat 32 (σ p n).val := by
  have e : ReadP.idx_main_v19 (ReadP.idx_main_call2_v5 (ix3 p n (0 : Fin 1))) = ix2 p n :=
    funext fun a => Fin.ext (by
      have hp := p.isLt
      have hn := n.isLt
      match a with
      | ⟨0, _⟩ => show ((p.val * 32 + n.val) * 1 + 0) / 32 = p.val; omega
      | ⟨1, _⟩ => show ((p.val * 32 + n.val) * 1 + 0) / 1 % 32 = n.val; omega)
  rw [ReadP.val_main_call2_v5_apply, ReadP.val_main_call2_v4_apply, ReadP.val_main_call2_v1_apply,
    ReadP.val_main_call2_v3_apply, ReadP.val_main_v19_apply, ReadP.val_main_call2_v0_apply,
    ReadP.val_main_call2_c_apply, e, RefValueB_v18 perms σ hσ p n]
  exact Cert.LibIndexWords.wrap_of_nonneg _ _ (by rw [RefValueB_toInt]; exact Int.natCast_nonneg _)

/-- The in-bounds bit at `(p, n, 0)`: the start index, a position below 32, is at least 0 and at most 31. -/
private theorem RefValueB_v11 (perms : IVec S16x32 32) (σ : Fin 16 → Fin 32 → Fin 32)
    (hσ : ∀ p n, (Host.sort2 S16x32 1 comparator_i32_i32_d1 perms (iotaInDim S16x32 32 1)).2 (ix2 p n)
        = BitVec.ofNat 32 (σ p n).val) (i : S16x32x1.Idx) :
    ReadP.val_main_call2_v11 (F := Ideal) perms i = 1#1 := by
  obtain ⟨p, n, z, rfl⟩ : ∃ (p : Fin 16) (n : Fin 32) (z : Fin 1), i = ix3 p n z := ⟨i 0, i 1, i 2, eq_ix3 i⟩
  obtain rfl : z = 0 := Subsingleton.elim _ _
  have hk := (σ p n).isLt
  rw [ReadP.val_main_call2_v11_apply, ReadP.val_main_call2_v7_apply, ReadP.val_main_call2_v10_apply,
    RefValueB_v5 perms σ hσ p n, ReadP.val_main_call2_v6_apply, ReadP.val_main_call2_c_2_apply,
    ReadP.val_main_call2_v9_apply, ReadP.val_main_call2_v8_apply, ReadP.val_main_call2_c_1_apply]
  have h0 : (0#32 : BitVec 32).toInt = 0 := by decide
  have h31 : (31#32 : BitVec 32).toInt = 31 := by decide
  rw [IntOp.andi_eq_one, IntOp.cmpi_sge, IntOp.cmpi_sle, RefValueB_toInt, h0, h31]
  constructor <;> omega

/-- The in-bounds mask at `(p, n)` is 1. -/
private theorem RefValueB_v12 (perms : IVec S16x32 32) (σ : Fin 16 → Fin 32 → Fin 32)
    (hσ : ∀ p n, (Host.sort2 S16x32 1 comparator_i32_i32_d1 perms (iotaInDim S16x32 32 1)).2 (ix2 p n)
        = BitVec.ofNat 32 (σ p n).val) (j : S16x32.Idx) :
    ReadP.val_main_call2_v12 (F := Ideal) perms j = 1#1 := by
  unfold ReadP.val_main_call2_v12
  exact RefValueB_reduce_andi_one _ _ _ _ (RefValueB_v11 perms σ hσ) rfl j

local notation "gatherB" => gather_S16x16x32x16384_S16x32x1_S16x16x32x16384_13_2_0_0_2_2_116116384

/-- The batched gather along the feature axis, read at `(p, b, n, l)`: when the start index at `(p, n, 0)` is the word of
    a position `k p n` below 32, the clamp is idle and the element is the operand's at `(p, b, k p n, l)`. The
    permutation axis 0 is a batching axis (it reads the result's coordinate `p`), axes 1 and 3 are kept (they read the
    result's offset coordinates `b` and `l`), and the collapsed axis 2 reads the clamped start index. -/
private theorem RefValueB_gather {α : Type} (y : S16x16x32x16384.Idx → α) (idx : IVec S16x32x1 32)
    (k : Fin 16 → Fin 32 → Fin 32) (hidx : ∀ p n, idx (ix3 p n (0 : Fin 1)) = BitVec.ofNat 32 (k p n).val)
    (p b : Fin 16) (n : Fin 32) (l : Fin 16384) :
    Host.gather gatherB y idx (ix4 p b n l) = y (ix4 p b (k p n) l) := by
  unfold Host.gather
  refine congrArg y (funext fun a => Fin.ext ?_)
  show (gatherB).start (ix4 p b n l) idx a + (gatherB).batchCoord (ix4 p b n l) a + (gatherB).offCoord (ix4 p b n l) a
      = (ix4 p b (k p n) l a).val
  have b0 : (⟨0, by decide⟩ : Fin S16x16x32x16384.rank) ∈ (gatherB).operandBatchingDims := by decide
  have b1 : (⟨1, by decide⟩ : Fin S16x16x32x16384.rank) ∉ (gatherB).operandBatchingDims := by decide
  have b2 : (⟨2, by decide⟩ : Fin S16x16x32x16384.rank) ∉ (gatherB).operandBatchingDims := by decide
  have b3 : (⟨3, by decide⟩ : Fin S16x16x32x16384.rank) ∉ (gatherB).operandBatchingDims := by decide
  have k0 : (⟨0, by decide⟩ : Fin S16x16x32x16384.rank) ∉ (gatherB).sKept := by decide
  have k2 : (⟨2, by decide⟩ : Fin S16x16x32x16384.rank) ∉ (gatherB).sKept := by decide
  have m1 : (⟨1, by decide⟩ : Fin S16x16x32x16384.rank) ∉ (gatherB).startIndexMap := by decide
  have m2 : (⟨2, by decide⟩ : Fin S16x16x32x16384.rank) ∈ (gatherB).startIndexMap := by decide
  have m3 : (⟨3, by decide⟩ : Fin S16x16x32x16384.rank) ∉ (gatherB).startIndexMap := by decide
  match a with
  | ⟨0, _⟩ =>
    rw [GatherDims.start_batching _ _ _ _ b0, GatherDims.offCoord_eq_zero _ _ _ k0]
    simp only [Nat.zero_add, Nat.add_zero]
    rfl
  | ⟨1, _⟩ =>
    have hs : (gatherB).start (ix4 p b n l) idx ⟨1, by decide⟩ = 0 := by
      unfold GatherDims.start
      exact dif_neg m1
    rw [hs, GatherDims.batchCoord_eq_zero _ _ _ b1]
    simp only [Nat.zero_add, Nat.add_zero]
    rfl
  | ⟨2, _⟩ =>
    rw [GatherDims.batchCoord_eq_zero _ _ _ b2, GatherDims.offCoord_eq_zero _ _ _ k2]
    simp only [Nat.zero_add, Nat.add_zero]
    unfold GatherDims.start
    rw [dif_pos m2]
    have hsi : (gatherB).siIdx (ix4 p b n l)
        ⟨List.idxOf (⟨2, by decide⟩ : Fin S16x16x32x16384.rank) (gatherB).startIndexMap,
          List.idxOf_lt_length_iff.2 m2⟩ = ix3 p n (0 : Fin 1) := by
      funext c; refine Fin.ext ?_
      match c with
      | ⟨0, _⟩ => rfl
      | ⟨1, _⟩ => rfl
      | ⟨2, _⟩ => rfl
    rw [hsi, hidx p n]
    exact Cert.LibIndexWords.clamp_of_eq _ 32 (k p n) (RefValueB_toInt (k p n))
  | ⟨3, _⟩ =>
    have hs : (gatherB).start (ix4 p b n l) idx ⟨3, by decide⟩ = 0 := by
      unfold GatherDims.start
      exact dif_neg m3
    rw [hs, GatherDims.batchCoord_eq_zero _ _ _ b3]
    simp only [Nat.zero_add, Nat.add_zero]
    rfl

/-- The inverse gather's result at `(p, b, n, l)`: the mask is 1, so the select takes the gathered value, the array
    before the gather at the sorted position `σ p n` of `n`. -/
private theorem RefValueB_v20 (x : FVec Ideal S16x32x16384 .f32) (perms : IVec S16x32 32) (W1 : FVec Ideal S64x32 .f32)
    (b1 : FVec Ideal S64 .f32) (W2 : FVec Ideal S32x64 .f32) (b2 : FVec Ideal S32 .f32)
    (σ : Fin 16 → Fin 32 → Fin 32)
    (hσ : ∀ p n, (Host.sort2 S16x32 1 comparator_i32_i32_d1 perms (iotaInDim S16x32 32 1)).2 (ix2 p n)
        = BitVec.ofNat 32 (σ p n).val)
    (p b : Fin 16) (n : Fin 32) (l : Fin 16384) :
    ReadP.val_main_v20 (F := Ideal) x perms W1 b1 W2 b2 (ix4 p b n l)
      = ReadP.val_main_v17 (F := Ideal) x perms W1 b1 W2 b2 (ix4 p b (σ p n) l) := by
  rw [ReadP.val_main_v20_apply, ReadP.val_main_call2_v14_apply, RefValueB_v12 perms σ hσ, select_one]
  unfold ReadP.val_main_call2_v13
  generalize ReadP.val_main_v17 (F := Ideal) x perms W1 b1 W2 b2 = y
  exact RefValueB_gather y _ σ (RefValueB_v5 perms σ hσ) p b n l

/-- The result at `(b, n, l)`: the sum from zero over the sixteen permutations of the network's output
    feature at the sorted position of `n`, divided by the float 16. -/
theorem mean_apply (x : FVec Ideal S16x32x16384 .f32) (perms : IVec S16x32 32) (W1 : FVec Ideal S64x32 .f32)
    (b1 : FVec Ideal S64 .f32) (W2 : FVec Ideal S32x64 .f32) (b2 : FVec Ideal S32 .f32)
    (σ : Fin 16 → Fin 32 → Fin 32)
    (hσ : ∀ p n, (Host.sort2 S16x32 1 comparator_i32_i32_d1 perms (iotaInDim S16x32 32 1)).2 (ix2 p n)
        = BitVec.ofNat 32 (σ p n).val)
    (b : Fin 16) (n : Fin 32) (l : Fin 16384) :
    Cert.ReferenceIdeal.ReadP.val_main_v23 (F := Ideal) x perms W1 b1 W2 b2 (ix3 b n l)
      = Ideal.div (0 + ∑ p : Fin 16,
          Cert.ReferenceIdeal.ReadP.val_main_v17 (F := Ideal) x perms W1 b1 W2 b2 (ix4 p b (σ p n) l))
          (Ideal.ofBits .f32 0x41800000#32) := by
  have e : ∀ p : Fin 16, ReadP.idx_main_v21 (ix3 b n l) p = ix4 p b n l := fun p =>
    funext fun a => Fin.ext (by
      match a with
      | ⟨0, _⟩ => rfl
      | ⟨1, _⟩ => rfl
      | ⟨2, _⟩ => rfl
      | ⟨3, _⟩ => rfl)
  rw [ReadP.val_main_v23_apply, ReadP.val_main_v21_apply, ReadP.val_main_v22_apply, ReadP.val_main_cst_1_apply,
    ReadP.val_main_cst_apply]
  simp only [Ideal.hostDivf_def, Ideal.ofBits_def, Ideal.ofBits_zero_f32, e, RefValueB_v20 x perms W1 b1 W2 b2 σ hσ]

end Cert.ReferenceIdeal.RefValue

end
-- ==== Proof.RefValue.lean ====
import proofs.«411942_j19035295055965_2_alg».proof.Proof.RefValueA
import proofs.«411942_j19035295055965_2_alg».proof.Proof.RefValueB
import proofs.«411942_j19035295055965_2_alg».proof.Proof.Spec

/-!
# The reference's result at one index

The reference gathers the 32 features of every column through each of the sixteen permutation rows,
applies the two-layer network with a rectifier to each permuted column, reads the network's output
features back through the argsort of the permutation row, sums the sixteen results from zero and divides
by the float 16. Its result array at an index `(b, n, l)` is the formula `refForm` of the column
`x[b, ·, l]`, the weights and biases, the positions `π p n'` the permutation rows hold and the positions
`σ p n` their argsort holds.
-/

noncomputable section

open scoped BigOperators

namespace Cert.ReferenceIdeal.RefValue

open Cert.ReferenceIdeal Cert.ReferenceIdeal.Gen Idealize.ShloMosaic Idealize.ShloMosaic.ValueIdx

/-- The reference's result stage at `(b, n, l)`, for a permutation matrix whose words are the positions
    `π p n` and whose argsort's words are the positions `σ p n`. -/
theorem ref_apply (x : FVec Ideal S16x32x16384 .f32) (perms : IVec S16x32 32) (W1 : FVec Ideal S64x32 .f32)
    (b1 : FVec Ideal S64 .f32) (W2 : FVec Ideal S32x64 .f32) (b2 : FVec Ideal S32 .f32)
    (π σ : Fin 16 → Fin 32 → Fin 32)
    (hπ : ∀ p n, perms (ix2 p n) = BitVec.ofNat 32 (π p n).val)
    (hσ : ∀ p n, (Host.sort2 S16x32 1 comparator_i32_i32_d1 perms (iotaInDim S16x32 32 1)).2 (ix2 p n)
        = BitVec.ofNat 32 (σ p n).val)
    (b : Fin 16) (n : Fin 32) (l : Fin 16384) :
    Cert.ReferenceIdeal.ReadP.val_main_v23 (F := Ideal) x perms W1 b1 W2 b2 (ix3 b n l)
      = Cert.Sym.refForm (fun n' => x (ix3 b n' l)) (fun hh n' => W1 (ix2 hh n')) (fun hh => b1 (ix1 hh))
          (fun o hh => W2 (ix2 o hh)) (fun o => b2 (ix1 o)) π σ (Ideal.ofBits .f32 0x41800000#32) n := by
  rw [mean_apply x perms W1 b1 W2 b2 σ hσ b n l]
  unfold Cert.Sym.refForm
  simp only [net_apply x perms W1 b1 W2 b2 π hπ]

end Cert.ReferenceIdeal.RefValue

end
-- ==== Proof.lean ====
/- The kernel averages a two-layer network with a rectifier over sixteen permutations of the 32 input
   features of every column: the reference permutes the column, applies the network and permutes the result
   back through the argsort of the permutation; the kernel instead gathers the weights through the argsort
   once, stacks four permuted copies at a time into 256-row tables, folds the 1/16 of the mean into the second
   layer and the mean of the permuted second bias into one column, and runs four stacked matrix-product pairs
   per block. The two agree when every row of the permutation matrix is a permutation of the 32 positions
   (the precondition says so: the matrix sorts, row by row, to 0 … 31): then the argsort is the inverse
   permutation, so summing the first layer against the permuted column is summing the inversely permuted
   first layer against the column itself; the rest is re-association of finite sums of real numbers
   (all inputs are finite) and the exact values 1/16 and 16 of two float constants.
   The frames of the two kernel programs are the generated ones; the reference's frame and value come from its
   run read back; the kernel's value from the generated blockwise value leg, the loop of the body opened once. -/
import proofs.«411942_j19035295055965_2_alg».proof.Defs
import proofs.«411942_j19035295055965_2_alg».proof.Proof.Gen.Kernel
import proofs.«411942_j19035295055965_2_alg».proof.Proof.Gen.Kernel.Skeleton
import proofs.«411942_j19035295055965_2_alg».proof.Proof.Gen.Kernel.Loops
import proofs.«411942_j19035295055965_2_alg».proof.Proof.Gen.Kernel.Launch
import proofs.«411942_j19035295055965_2_alg».proof.Proof.Gen.Kernel.Points
import proofs.«411942_j19035295055965_2_alg».proof.Proof.Gen.Kernel.Frame
import proofs.«411942_j19035295055965_2_alg».proof.Proof.Gen.KernelIdeal
import proofs.«411942_j19035295055965_2_alg».proof.Proof.Gen.KernelIdeal.Skeleton
import proofs.«411942_j19035295055965_2_alg».proof.Proof.Gen.KernelIdeal.Loops
import proofs.«411942_j19035295055965_2_alg».proof.Proof.Gen.KernelIdeal.Launch
import proofs.«411942_j19035295055965_2_alg».proof.Proof.Gen.KernelIdeal.Points
import proofs.«411942_j19035295055965_2_alg».proof.Proof.Gen.KernelIdeal.Frame
import proofs.«411942_j19035295055965_2_alg».proof.Proof.Gen.ReferenceIdeal
import proofs.«411942_j19035295055965_2_alg».proof.Proof.Gen.Pre_finite_inputs
import proofs.«411942_j19035295055965_2_alg».proof.Proof.Gen.KernelIdeal.Value
import proofs.«411942_j19035295055965_2_alg».proof.Proof.RefRun
import proofs.«411942_j19035295055965_2_alg».proof.Proof.RefRead
import proofs.«411942_j19035295055965_2_alg».proof.Proof.Spec
import proofs.«411942_j19035295055965_2_alg».proof.Proof.LibArgsortRows
import proofs.«411942_j19035295055965_2_alg».proof.Proof.PreFacts
import proofs.«411942_j19035295055965_2_alg».proof.Proof.KerArgs
import proofs.«411942_j19035295055965_2_alg».proof.Proof.KerHostW1
import proofs.«411942_j19035295055965_2_alg».proof.Proof.KerHostW2
import proofs.«411942_j19035295055965_2_alg».proof.Proof.KerValue
import proofs.«411942_j19035295055965_2_alg».proof.Proof.RefValue
import Idealize.ShloMosaic.Adequacy
import Idealize.ShloMosaic.Init

noncomputable section

namespace Cert.Proof

open Idealize.ShloMosaic Idealize.ShloMosaic.ValueIdx Idealize.SL.Sem
open Cert.KernelIdeal.HostTables

/-- ONE ELEMENT: under the precondition the reference's result stage at `(b, n, L)`, on the kernel's
    arguments, is the kernel's array function there. The precondition gives real entries and rows that sort
    to the positions; the sorting self-maps `σ p` are bijections with the rows' position maps `π p` as left
    inverses; the argsort of both programs holds `σ`; the kernel's tables are the stacked, permuted weights;
    and the two formulas agree on real inputs. -/
theorem elem_eq (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 16) (n : Fin 32) (L : Fin 16384) :
    Cert.ReferenceIdeal.ReadP.val_main_v23 (F := Ideal) (argX m c) (argPerms m c) (argW1 m c) (argB1 m c) (argW2 m c) (argB2 m c) (ix3 b n L)
      = Cert.KernelIdeal.ArrayValue.elemOf m c b n L := by
  obtain ⟨hx, hW1, hb1, hW2, hb2, hs⟩ :=
    Cert.Pre_finite_inputs.Decode.decode (argX m c) (argPerms m c) (argW1 m c) (argB1 m c) (argW2 m c) (argB2 m c) (hpre c)
  obtain ⟨π, hπ, hπσ⟩ := Cert.LibArgsortRows.exists_rowPerm_of_sort_eq_iota Cert.Pre_finite_inputs.comparator_i32_d1 (argPerms m c) hs
  let σ : Fin 16 → Fin 32 → Fin 32 := Cert.LibArgsortRows.rowSort Cert.Pre_finite_inputs.comparator_i32_d1 (argPerms m c)
  have hσbij : ∀ p, Function.Bijective (σ p) := fun p =>
    Cert.LibArgsortRows.rowSort_bijective Cert.Pre_finite_inputs.comparator_i32_d1 (argPerms m c) p
  have hσk : ∀ p n, invTable m c (ix2 p n) = BitVec.ofNat 32 (σ p n).val := fun p n =>
    Cert.LibArgsortRows.sort2_iota_snd_apply Cert.KernelIdeal.comparator_i32_i32_d1 Cert.Pre_finite_inputs.comparator_i32_d1
      (fun _ _ => rfl) (argPerms m c) p n
  have hσr : ∀ p n, (Host.sort2 Cert.ReferenceIdeal.S16x32 1 Cert.ReferenceIdeal.comparator_i32_i32_d1 (argPerms m c) (iotaInDim Cert.ReferenceIdeal.S16x32 32 1)).2 (ix2 p n)
      = BitVec.ofNat 32 (σ p n).val := fun p n =>
    Cert.LibArgsortRows.sort2_iota_snd_apply Cert.ReferenceIdeal.comparator_i32_i32_d1 Cert.Pre_finite_inputs.comparator_i32_d1
      (fun _ _ => rfl) (argPerms m c) p n
  rw [Cert.ReferenceIdeal.RefValue.ref_apply (argX m c) (argPerms m c) (argW1 m c) (argB1 m c) (argW2 m c) (argB2 m c) π σ hπ hσr b n L]
  unfold Cert.KernelIdeal.ArrayValue.elemOf
  have h1 : (fun (g : Fin 4) (k : Fin 256) (n' : Fin 32) => tblW1g m c (ix3 g k n'))
      = Cert.Sym.w1Stack (fun hh n' => argW1 m c (ix2 hh n')) σ :=
    funext fun g => funext fun k => funext fun n' => w1g_apply m c σ hσk g k n'
  have h2 : (fun (g : Fin 4) (n : Fin 32) (k : Fin 256) => tblW2g m c (ix3 g n k))
      = Cert.Sym.w2Stack (fun o hh => argW2 m c (ix2 o hh)) σ (Ideal.ofBits .f32 0x3D800000#32) :=
    funext fun g => funext fun n => funext fun k => w2g_apply m c σ hσk g n k
  have h3 : (fun k : Fin 256 => tblB1g m c (ix2 k (0 : Fin 1))) = Cert.Sym.b1Stack (fun hh => argB1 m c (ix1 hh)) :=
    funext fun k => b1g_apply m c k
  have h4 : (fun n : Fin 32 => tblB2f m c (ix2 n (0 : Fin 1)))
      = Cert.Sym.b2Fold (fun o => argB2 m c (ix1 o)) σ (Ideal.ofBits .f32 0x41800000#32) :=
    funext fun n => b2f_apply m c σ hσk n
  rw [h1, h2, h3, h4]
  exact (Cert.Sym.kerForm_eq_refForm (fun n' => argX m c (ix3 b n' L)) (fun hh n' => argW1 m c (ix2 hh n'))
    (fun hh => argB1 m c (ix1 hh)) (fun o hh => argW2 m c (ix2 o hh)) (fun o => argB2 m c (ix1 o)) π σ
    (fun i => hx _) (fun i j => hW1 _) (fun i => hb1 _) (fun i j => hW2 _) (fun i => hb2 _) hσbij hπσ n).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read at the extended reals. -/
theorem preserves : Cert.preserves_Kernel_KernelIdeal := trivial

/-- Both idealized programs run; the kernel's result array is the array function of its arguments (the
    value leg, block by block), the reference's is its result stage of the same arguments, and the two are
    equal element by element (`elem_eq`). -/
theorem algebraic : Cert.algebraic_KernelIdeal_ReferenceIdeal := by
  intro m ρ m' ρ' hpre hagree
  refine ⟨fun c => Cert.KernelIdeal.ArrayValue.arrOf m c, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v23_eq, (hagree c).1, (hagree c).2.1, (hagree c).2.2.1, (hagree c).2.2.2.1,
    (hagree c).2.2.2.2.1, (hagree c).2.2.2.2.2]
  funext i
  obtain ⟨b, n, L, rfl⟩ : ∃ (b : Fin 16) (n : Fin 32) (L : Fin 16384), i = ix3 b n L := ⟨i 0, i 1, i 2, eq_ix3 i⟩
  exact elem_eq m hpre c b n L

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
